-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S3200000 : Shape := ⟨1, ![3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S64x16 : Shape := ⟨2, ![64, 16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_

variable [Facts]

def fn_part2 {F : FTy → Type} [FloatOps F] (main_arg9 : FVec F S16 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg6 : FVec F S16x64 .f32) (main_arg7 : FVec F S64 .f32) (main_arg8 : FVec F S64x16 .f32) (main_arg9 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x64 .f32 := Host.absf main_arg6
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x16 .f32 := Host.absf main_arg8
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg9 main_v33

def fn {F : FTy → Type} [FloatOps F] (main_arg0 : FVec F S100000x512 .f32) (main_arg1 : IVec S3200000 32) (main_arg2 : IVec S3200000 32) (main_arg3 : FVec F S3200000 .f32) (main_arg4 : FVec F S512x16 .f32) (main_arg5 : FVec F S16 .f32) (main_arg6 : FVec F S16x64 .f32) (main_arg7 : FVec F S64 .f32) (main_arg8 : FVec F S64x16 .f32) (main_arg9 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x16 .f32 := Host.absf main_arg4
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_arg8 main_arg9 main_v13 main_v16
-- ==== Kernel.lean ====
abbrev S100000x512 : Shape := ⟨2, ![100000, 512]⟩
abbrev S3200000 : Shape := ⟨1, ![3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S64x16 : Shape := ⟨2, ![64, 16]⟩
abbrev S100000x16 : Shape := ⟨2, ![100000, 16]⟩
abbrev S2000x512 : Shape := ⟨2, ![2000, 512]⟩
abbrev S2000x16 : Shape := ⟨2, ![2000, 16]⟩
abbrev S3200000x1 : Shape := ⟨2, ![3200000, 1]⟩
abbrev S_ : Shape := ⟨0, ![]⟩
abbrev S3200000x16 : Shape := ⟨2, ![3200000, 16]⟩
abbrev S10000x16 : Shape := ⟨2, ![10000, 16]⟩
abbrev S1x16 : Shape := ⟨2, ![1, 16]⟩
abbrev S100000x64 : Shape := ⟨2, ![100000, 64]⟩
abbrev S2000x64 : Shape := ⟨2, ![2000, 64]⟩
abbrev S3200000x64 : Shape := ⟨2, ![3200000, 64]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 64
  | .vmem => 30
  | .smem => 0
  | _ => 0

abbrev bufTy : (tb : Table) → Fin (tcTables nBuf tb) → BufTy
  | .hbm, ⟨0, _⟩ => ⟨S100000x512, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S512x16, .f32⟩
  | .hbm, ⟨5, _⟩ => ⟨S16, .f32⟩
  | .hbm, ⟨6, _⟩ => ⟨S16x64, .f32⟩
  | .hbm, ⟨7, _⟩ => ⟨S64, .f32⟩
  | .hbm, ⟨8, _⟩ => ⟨S64x16, .f32⟩
  | .hbm, ⟨9, _⟩ => ⟨S16, .f32⟩
  | .hbm, ⟨10, _⟩ => ⟨S100000x16, .f32⟩
  | .hbm, ⟨11, _⟩ => ⟨S3200000x1, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x16, .f32⟩
  | .hbm, ⟨21, _⟩ => ⟨S3200000x16, .f32⟩
  | .hbm, ⟨22, _⟩ => ⟨S3200000x16, .f32⟩
  | .hbm, ⟨23, _⟩ => ⟨S_, .f32⟩
  | .hbm, ⟨24, _⟩ => ⟨S100000x16, .f32⟩
  | .hbm, ⟨25, _⟩ => ⟨S3200000x1, .i32⟩
  | .hbm, ⟨26, _⟩ => ⟨S100000x16, .f32⟩
  | .hbm, ⟨27, _⟩ => ⟨S100000x16, .f32⟩
  | .hbm, ⟨28, _⟩ => ⟨S100000x64, .f32⟩
  | .hbm, ⟨29, _⟩ => ⟨S3200000x1, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000x64, .f32⟩
  | .hbm, ⟨39, _⟩ => ⟨S3200000x64, .f32⟩
  | .hbm, ⟨40, _⟩ => ⟨S3200000x64, .f32⟩
  | .hbm, ⟨41, _⟩ => ⟨S_, .f32⟩
  | .hbm, ⟨42, _⟩ => ⟨S100000x64, .f32⟩
  | .hbm, ⟨43, _⟩ => ⟨S3200000x1, .i32⟩
  | .hbm, ⟨44, _⟩ => ⟨S100000x64, .f32⟩
  | .hbm, ⟨45, _⟩ => ⟨S100000x64, .f32⟩
  | .hbm, ⟨46, _⟩ => ⟨S100000x16, .f32⟩
  | .hbm, ⟨47, _⟩ => ⟨S3200000x1, .f32⟩
  | .hbm, ⟨48, _⟩ => ⟨S_, .i32⟩
  | .hbm, ⟨49, _⟩ => ⟨S3200000, .i32⟩
  | .hbm, ⟨50, _⟩ => ⟨S3200000, .i1⟩
  | .hbm, ⟨51, _⟩ => ⟨S_, .i32⟩
  | .hbm, ⟨52, _⟩ => ⟨S3200000, .i32⟩
  | .hbm, ⟨53, _⟩ => ⟨S3200000, .i32⟩
  | .hbm, ⟨54, _⟩ => ⟨S3200000, .i32⟩
  | .hbm, ⟨55, _⟩ => ⟨S3200000x1, .i32⟩
  | .hbm, ⟨56, _⟩ => ⟨S3200000x16, .f32⟩
  | .hbm, ⟨57, _⟩ => ⟨S3200000x16, .f32⟩
  | .hbm, ⟨58, _⟩ => ⟨S3200000x16, .f32⟩
  | .hbm, ⟨59, _⟩ => ⟨S_, .f32⟩
  | .hbm, ⟨60, _⟩ => ⟨S100000x16, .f32⟩
  | .hbm, ⟨61, _⟩ => ⟨S3200000x1, .i32⟩
  | .hbm, ⟨62, _⟩ => ⟨S100000x16, .f32⟩
  | .hbm, ⟨63, _⟩ => ⟨S100000x16, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S10000x16, .f32⟩
  | .local _ .vmem, ⟨6, _⟩ => ⟨S10000x16, .f32⟩
  | .local _ .vmem, ⟨7, _⟩ => ⟨S16, .f32⟩
  | .local _ .vmem, ⟨8, _⟩ => ⟨S10000x16, .f32⟩
  | .local _ .vmem, ⟨9, _⟩ => ⟨S10000x16, .f32⟩
  | .local _ .vmem, ⟨10, _⟩ => ⟨S2000x16, .f32⟩
  | .local _ .vmem, ⟨11, _⟩ => ⟨S2000x16, .f32⟩
  | .local _ .vmem, ⟨12, _⟩ => ⟨S16x64, .f32⟩
  | .local _ .vmem, ⟨13, _⟩ => ⟨S2000x64, .f32⟩
  | .local _ .vmem, ⟨14, _⟩ => ⟨S2000x64, .f32⟩
  | .local _ .vmem, ⟨15, _⟩ => ⟨S10000x64, .f32⟩
  | .local _ .vmem, ⟨16, _⟩ => ⟨S10000x64, .f32⟩
  | .local _ .vmem, ⟨17, _⟩ => ⟨S64, .f32⟩
  | .local _ .vmem, ⟨18, _⟩ => ⟨S10000x64, .f32⟩
  | .local _ .vmem, ⟨19, _⟩ => ⟨S10000x64, .f32⟩
  | .local _ .vmem, ⟨20, _⟩ => ⟨S2000x64, .f32⟩
  | .local _ .vmem, ⟨21, _⟩ => ⟨S2000x64, .f32⟩
  | .local _ .vmem, ⟨22, _⟩ => ⟨S64x16, .f32⟩
  | .local _ .vmem, ⟨23, _⟩ => ⟨S2000x16, .f32⟩
  | .local _ .vmem, ⟨24, _⟩ => ⟨S2000x16, .f32⟩
  | .local _ .vmem, ⟨25, _⟩ => ⟨S10000x16, .f32⟩
  | .local _ .vmem, ⟨26, _⟩ => ⟨S10000x16, .f32⟩
  | .local _ .vmem, ⟨27, _⟩ => ⟨S16, .f32⟩
  | .local _ .vmem, ⟨28, _⟩ => ⟨S10000x16, .f32⟩
  | .local _ .vmem, ⟨29, _⟩ => ⟨S10000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  inb_S2000x512_S2000x512_0_0 : ∀ a, (![0, 0] : Fin 2 → Nat) a + S2000x512.size a ≤ S2000x512.size a
  h_S2000x512 : 0 < S2000x512.numel
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16_S16_0 : ∀ a, (![0] : Fin 1 → Nat) a + S16.size a ≤ S16.size a
  h_S16 : 0 < S16.numel
  shapeCasts_S16_S1x16 : S16.ShapeCasts S1x16
  broadcasts_S1x16_S10000x16 : S1x16.Broadcasts S10000x16
  shapeCasts_S2000x16_S2000x16 : S2000x16.ShapeCasts S2000x16
  inb_S16x64_S16x64_0_0 : ∀ a, (![0, 0] : Fin 2 → Nat) a + S16x64.size a ≤ S16x64.size a
  h_S16x64 : 0 < S16x64.numel
  inb_S2000x64_S2000x64_0_0 : ∀ a, (![0, 0] : Fin 2 → Nat) a + S2000x64.size a ≤ S2000x64.size a
  h_S2000x64 : 0 < S2000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  shapeCasts_S2000x64_S2000x64 : S2000x64.ShapeCasts S2000x64
  inb_S64x16_S64x16_0_0 : ∀ a, (![0, 0] : Fin 2 → Nat) a + S64x16.size a ≤ S64x16.size a
  h_S64x16 : 0 < S64x16.numel
  reduces_S10000x16_S10000 : S10000x16.Reduces [1] S10000
  shapeCasts_S10000_S10000x1 : S10000.ShapeCasts S10000x1
  broadcasts_S10000x1_S10000x16 : S10000x1.Broadcasts S10000x16
  dot_S2000x512_S512x16_S2000x16_1_0_0_1_n_n_wf : DotDims.WF S2000x512 S512x16 S2000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S2000x16_S16x64_S2000x64_1_0_0_1_n_n_wf : DotDims.WF S2000x16 S16x64 S2000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S2000x64_S64x16_S2000x16_1_0_0_1_n_n_wf : DotDims.WF S2000x64 S64x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16.size a ≤ S16.size a
  hwx1_1 : ∀ i : grid1.Coords, EltTy.bits .f32 = 32 ∨ (Rect.block (s := S16) S16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x64.size a ≤ S16x64.size a
  hwx2_1 : ∀ i : grid2.Coords, EltTy.bits .f32 = 32 ∨ (Rect.block (s := S16x64) S16x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x16.size a ≤ S64x16.size a
  hwx4_1 : ∀ i : grid4.Coords, EltTy.bits .f32 = 32 ∨ (Rect.block (s := S64x16) S64x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x16.size a ≤ S100000x16.size a
  hwx4_2 : ∀ i : grid4.Coords, EltTy.bits .f32 = 32 ∨ (Rect.block (s := S100000x16) S2000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x16.size a ≤ S100000x16.size a
  hwx5_0 : ∀ i : grid5.Coords, EltTy.bits .f32 = 32 ∨ (Rect.block (s := S100000x16) S10000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S16.size a ≤ S16.size a
  hwx5_1 : ∀ i : grid5.Coords, EltTy.bits .f32 = 32 ∨ (Rect.block (s := S16) S16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x16.size a ≤ S100000x16.size a
  hwx5_2 : ∀ i : grid5.Coords, EltTy.bits .f32 = 32 ∨ (Rect.block (s := S100000x16) S10000x16.size (cc5_transform_2 i) (hinb5_2 i)).WholeWords (EltTy.packing .f32)

variable [Facts₀]

def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S2000x16_S16x64_S2000x64_1_0_0_1_n_n : DotDims S2000x16 S16x64 S2000x64 where
  lhsContracting := [1]
  rhsContracting := [0]
  lhsNonContracting := [0]
  rhsNonContracting := [1]
  lhsBatch := []
  rhsBatch := []
  wf := dot_S2000x16_S16x64_S2000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v14) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S16x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v28) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v29) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v29) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v30) S2000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v43) S10000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v44) S10000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x512 : Shape := ⟨2, ![100000, 512]⟩
abbrev S3200000 : Shape := ⟨1, ![3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S64x16 : Shape := ⟨2, ![64, 16]⟩
abbrev S100000x16 : Shape := ⟨2, ![100000, 16]⟩
abbrev S3200000x1 : Shape := ⟨2, ![3200000, 1]⟩
abbrev S_ : Shape := ⟨0, ![]⟩
abbrev S3200000x16 : Shape := ⟨2, ![3200000, 16]⟩
abbrev S1x16 : Shape := ⟨2, ![1, 16]⟩
abbrev S100000x64 : Shape := ⟨2, ![100000, 64]⟩
abbrev S3200000x64 : Shape := ⟨2, ![3200000, 64]⟩
abbrev S1x64 : Shape := ⟨2, ![1, 64]⟩
abbrev S100000 : Shape := ⟨1, ![100000]⟩
abbrev S100000x1 : Shape := ⟨2, ![100000, 1]⟩

abbrev nBuf : Space → Nat
  | .hbm => 101
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S512x16, .f32⟩
  | .hbm, ⟨5, _⟩ => ⟨S16, .f32⟩
  | .hbm, ⟨6, _⟩ => ⟨S16x64, .f32⟩
  | .hbm, ⟨7, _⟩ => ⟨S64, .f32⟩
  | .hbm, ⟨8, _⟩ => ⟨S64x16, .f32⟩
  | .hbm, ⟨9, _⟩ => ⟨S16, .f32⟩
  | .hbm, ⟨10, _⟩ => ⟨S100000x16, .f32⟩
  | .hbm, ⟨11, _⟩ => ⟨S3200000x1, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x16, .f32⟩
  | .hbm, ⟨21, _⟩ => ⟨S3200000x16, .f32⟩
  | .hbm, ⟨22, _⟩ => ⟨S3200000x16, .f32⟩
  | .hbm, ⟨23, _⟩ => ⟨S_, .f32⟩
  | .hbm, ⟨24, _⟩ => ⟨S100000x16, .f32⟩
  | .hbm, ⟨25, _⟩ => ⟨S3200000x1, .i32⟩
  | .hbm, ⟨26, _⟩ => ⟨S100000x16, .f32⟩
  | .hbm, ⟨27, _⟩ => ⟨S1x16, .f32⟩
  | .hbm, ⟨28, _⟩ => ⟨S100000x16, .f32⟩
  | .hbm, ⟨29, _⟩ => ⟨S100000x16, .f32⟩
  | .hbm, ⟨30, _⟩ => ⟨S_, .f32⟩
  | .hbm, ⟨31, _⟩ => ⟨S_, .f32⟩
  | .hbm, ⟨32, _⟩ => ⟨S100000x16, .f32⟩
  | .hbm, ⟨33, _⟩ => ⟨S100000x16, .i1⟩
  | .hbm, ⟨34, _⟩ => ⟨S_, .f32⟩
  | .hbm, ⟨35, _⟩ => ⟨S100000x16, .f32⟩
  | .hbm, ⟨36, _⟩ => ⟨S100000x16, .f32⟩
  | .hbm, ⟨37, _⟩ => ⟨S100000x16, .f32⟩
  | .hbm, ⟨38, _⟩ => ⟨S100000x64, .f32⟩
  | .hbm, ⟨39, _⟩ => ⟨S3200000x1, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S3200000x64, .f32⟩
  | .hbm, ⟨49, _⟩ => ⟨S3200000x64, .f32⟩
  | .hbm, ⟨50, _⟩ => ⟨S3200000x64, .f32⟩
  | .hbm, ⟨51, _⟩ => ⟨S_, .f32⟩
  | .hbm, ⟨52, _⟩ => ⟨S100000x64, .f32⟩
  | .hbm, ⟨53, _⟩ => ⟨S3200000x1, .i32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S_, .f32⟩
  | .hbm, ⟨60, _⟩ => ⟨S100000x64, .f32⟩
  | .hbm, ⟨61, _⟩ => ⟨S100000x64, .i1⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S100000x16, .f32⟩
  | .hbm, ⟨67, _⟩ => ⟨S3200000x1, .f32⟩
  | .hbm, ⟨68, _⟩ => ⟨S_, .i32⟩
  | .hbm, ⟨69, _⟩ => ⟨S3200000, .i32⟩
  | .hbm, ⟨70, _⟩ => ⟨S3200000, .i1⟩
  | .hbm, ⟨71, _⟩ => ⟨S_, .i32⟩
  | .hbm, ⟨72, _⟩ => ⟨S3200000, .i32⟩
  | .hbm, ⟨73, _⟩ => ⟨S3200000, .i32⟩
  | .hbm, ⟨74, _⟩ => ⟨S3200000, .i32⟩
  | .hbm, ⟨75, _⟩ => ⟨S3200000x1, .i32⟩
  | .hbm, ⟨76, _⟩ => ⟨S3200000x16, .f32⟩
  | .hbm, ⟨77, _⟩ => ⟨S3200000x16, .f32⟩
  | .hbm, ⟨78, _⟩ => ⟨S3200000x16, .f32⟩
  | .hbm, ⟨79, _⟩ => ⟨S_, .f32⟩
  | .hbm, ⟨80, _⟩ => ⟨S100000x16, .f32⟩
  | .hbm, ⟨81, _⟩ => ⟨S3200000x1, .i32⟩
  | .hbm, ⟨82, _⟩ => ⟨S100000x16, .f32⟩
  | .hbm, ⟨83, _⟩ => ⟨S1x16, .f32⟩
  | .hbm, ⟨84, _⟩ => ⟨S100000x16, .f32⟩
  | .hbm, ⟨85, _⟩ => ⟨S100000x16, .f32⟩
  | .hbm, ⟨86, _⟩ => ⟨S_, .f32⟩
  | .hbm, ⟨87, _⟩ => ⟨S100000, .f32⟩
  | .hbm, ⟨88, _⟩ => ⟨S_, .f32⟩
  | .hbm, ⟨89, _⟩ => ⟨S100000, .f32⟩
  | .hbm, ⟨90, _⟩ => ⟨S100000, .f32⟩
  | .hbm, ⟨91, _⟩ => ⟨S100000x1, .f32⟩
  | .hbm, ⟨92, _⟩ => ⟨S100000x16, .f32⟩
  | .hbm, ⟨93, _⟩ => ⟨S100000x16, .f32⟩
  | .hbm, ⟨94, _⟩ => ⟨S100000x16, .f32⟩
  | .hbm, ⟨95, _⟩ => ⟨S_, .f32⟩
  | .hbm, ⟨96, _⟩ => ⟨S100000, .f32⟩
  | .hbm, ⟨97, _⟩ => ⟨S100000x1, .f32⟩
  | .hbm, ⟨98, _⟩ => ⟨S100000x1, .f32⟩
  | .hbm, ⟨99, _⟩ => ⟨S100000x16, .f32⟩
  | .hbm, ⟨100, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_6 : Ref sig .tc := ⟨.hbm, 68, rfl⟩
abbrev main_v38 : Ref sig .tc := ⟨.hbm, 69, rfl⟩
abbrev main_v39 : Ref sig .tc := ⟨.hbm, 70, rfl⟩
abbrev main_c_7 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_8 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_call2_cst : Ref sig .tc := ⟨.hbm, 86, rfl⟩
abbrev main_call2_v0 : Ref sig .tc := ⟨.hbm, 87, rfl⟩
abbrev main_call2_cst_0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_cst_1 : Ref sig .tc := ⟨.hbm, 95, rfl⟩
abbrev main_call2_v7 : Ref sig .tc := ⟨.hbm, 96, rfl⟩
abbrev main_call2_v8 : Ref sig .tc := ⟨.hbm, 97, rfl⟩
abbrev main_call2_v9 : Ref sig .tc := ⟨.hbm, 98, rfl⟩
abbrev main_call2_v10 : Ref sig .tc := ⟨.hbm, 99, rfl⟩
abbrev main_v53 : Ref sig .tc := ⟨.hbm, 100, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x16_S100000_d1 : S100000x16.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x512_S512x16_S100000x16_1_0_0_1_n_n_wf : DotDims.WF S100000x512 S512x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x64_S100000x64_1_0_0_1_n_n_wf : DotDims.WF S100000x16 S16x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x16_S100000x16_1_0_0_1_n_n_wf : DotDims.WF S100000x64 S64x16 S100000x16 [1] [0] [0] [1] [] []

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.Spec.lean ====
/-
  The mathematics both programs compute, on extended reals, for arrays of any extents.
  One graph-convolution layer is: support = h · W (rows times columns); one message per edge, the edge's value
  times the support row of the edge's source; the messages summed into the row of the edge's destination; the
  bias added to every row. Layers 1 and 2 end in the leaky rectifier, layer 3 in a row-wise log-softmax.
  The sparse step (gather, scale, scatter-add) is the SAME host operations in both programs and is carried whole;
  stated here are the three dense stages, entry by entry.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `n` rows and `k` columns. -/
abbrev Mat (n k : Nat) : Type := (⟨2, ![n, k]⟩ : Shape).Idx → EReal
/-- A vector of `k` extended reals. -/
abbrev Row (k : Nat) : Type := (⟨1, ![k]⟩ : Shape).Idx → EReal

/-- Rows times columns: entry (r, q) is the sum over l of X[r, l] · W[l, q]. -/
def mm {n k p : Nat} (X : Mat n k) (W : Mat k p) : Mat n p :=
  fun i => ∑ l : Fin k, X (ix2 (i 0 : Fin n) l) * W (ix2 l (i 1 : Fin p))

/-- The rectifier's slope: the f32 word both programs carry (0.01 rounded to f32), read exactly. -/
abbrev slope : EReal := Ideal.ofBits .f32 0x3C23D70A#32

/-- The leaky rectifier of one value: v itself where the float comparison v ≥ 0 holds, slope · v elsewhere. -/
def leaky (v : EReal) : EReal :=
  Scalar.select (FloatOps.cmpf (F := Ideal) (φ := .f32) .oge v (Ideal.ofBits .f32 0x00000000#32)) v (slope * v)

/-- A layer's tail for layers 1 and 2: the bias added along every row, then the leaky rectifier, entry by entry. -/
def biasLeaky {n p : Nat} (X : Mat n p) (b : Row p) : Mat n p :=
  fun i => leaky (X i + b (ix1 (i 1 : Fin p)))

/-- The maximum of row r, folded from −∞ (the word 0xFF800000). -/
def rowMax {n p : Nat} (Y : Mat n p) (r : Fin n) : EReal :=
  (Finset.univ : Finset (Fin p)).fold max (Ideal.ofBits .f32 0xFF800000#32) (fun q => Y (ix2 r q))

/-- Row-wise log-softmax in its shifted form: with m the row's maximum,
    (y − m) − log Σ_q exp(y_q − m). -/
def logSoftmax {n p : Nat} (Y : Mat n p) : Mat n p :=
  fun i => (Y i - rowMax Y (i 0 : Fin n))
    - Ideal.log (∑ q : Fin p, Ideal.exp (Y (ix2 (i 0 : Fin n) q) - rowMax Y (i 0 : Fin n)))

/-- Layer 3's tail: the bias added along every row, then the row-wise log-softmax. -/
def biasLogSoftmax {n p : Nat} (X : Mat n p) (b : Row p) : Mat n p :=
  logSoftmax (fun i => X i + b (ix1 (i 1 : Fin p)))

end Cert.Spec

end
-- ==== Proof.KerTerms.lean ====
/-
  The kernel program's host side by name: between two of its pallas_calls @main gathers the support rows at the
  edges' sources, scales them by the edge values and scatter-adds them at the edges' destinations. The same
  operations stand in the reference, so the step is carried as ONE function of its four operands, at any float
  instance; `out` composes the six regions' stages (Spec.lean) with it, at the extended reals.
-/
import proofs.«405061_j45071386805056_4_alg».proof.Proof.Gen.KernelIdeal
import proofs.«405061_j45071386805056_4_alg».proof.Proof.Spec

noncomputable section

namespace Cert.KernelIdeal.Val

open Cert.KernelIdeal Cert.KernelIdeal.Facts₀ Idealize.ShloMosaic Idealize.ShloMosaic.TcCoe Idealize.SL.Sem

/-- The TensorCore's buffer contents when a region is entered, at the extended reals: what each region's stage is a
    function of. -/
abbrev Entry : Type := (c : Dev nD) → (b : Ref sig .tc) → Buf (Elt Ideal) ((c : Thread nD τ).loc b)

section AnyInstance
variable {F : FTy → Type} [FloatOps F]

/-- The sparse step of a layer of width 16, as the program's own host operations: a source index below zero is moved up by the node count; the support rows are gathered at the source indices, scaled by the edge values, and scatter-added at the destination indices onto zeros. -/
def sparse16 (support : FVec F S100000x16 .f32) (src dst : IVec S3200000 32) (ev : FVec F S3200000 .f32) : FVec F S100000x16 .f32 :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 dst)
    (mulf
      (broadcastInDim S3200000x16 ![0, 1] bcast_S3200000x1_S3200000x16_0_1
        (broadcastInDim S3200000x1 ![0] bcast_S3200000_S3200000x1_0 ev))
      (Host.gather gather_S100000x16_S3200000x1_S3200000x16_1_0_n_n_0_1_116 support
        (broadcastInDim S3200000x1 ![0] bcast_S3200000_S3200000x1_0
          (select
            (cmpi .slt src (broadcastInDim S3200000 ![] bcast_S_S3200000 (constantI S_ 32 0#32)))
            (addi src (broadcastInDim S3200000 ![] bcast_S_S3200000 (constantI S_ 32 100000#32)))
            src))))

/-- The sparse step of a layer of width 64, as the program's own host operations: a source index below zero is moved up by the node count; the support rows are gathered at the source indices, scaled by the edge values, and scatter-added at the destination indices onto zeros. -/
def sparse64 (support : FVec F S100000x64 .f32) (src dst : IVec S3200000 32) (ev : FVec F S3200000 .f32) : FVec F S100000x64 .f32 :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 dst)
    (mulf
      (broadcastInDim S3200000x64 ![0, 1] bcast_S3200000x1_S3200000x64_0_1
        (broadcastInDim S3200000x1 ![0] bcast_S3200000_S3200000x1_0 ev))
      (Host.gather gather_S100000x64_S3200000x1_S3200000x64_1_0_n_n_0_1_164 support
        (broadcastInDim S3200000x1 ![0] bcast_S3200000_S3200000x1_0
          (select
            (cmpi .slt src (broadcastInDim S3200000 ![] bcast_S_S3200000 (constantI S_ 32 0#32)))
            (addi src (broadcastInDim S3200000 ![] bcast_S_S3200000 (constantI S_ 32 100000#32)))
            src))))

end AnyInstance

/-- What @main computes from its ten arguments, at the extended reals: three layers (product, sparse step, bias and
    activation), the last one's activation the row-wise log-softmax. -/
def out (x : FVec Ideal S100000x512 .f32) (src dst : IVec S3200000 32) (ev : FVec Ideal S3200000 .f32)
    (W1 : FVec Ideal S512x16 .f32) (b1 : FVec Ideal S16 .f32) (W2 : FVec Ideal S16x64 .f32) (b2 : FVec Ideal S64 .f32)
    (W3 : FVec Ideal S64x16 .f32) (b3 : FVec Ideal S16 .f32) : FVec Ideal S100000x16 .f32 :=
  Cert.Spec.biasLogSoftmax
    (sparse16 (Cert.Spec.mm
      (Cert.Spec.biasLeaky
        (sparse64 (Cert.Spec.mm
          (Cert.Spec.biasLeaky (sparse16 (Cert.Spec.mm x W1) src dst ev) b1)
          W2) src dst ev)
        b2)
      W3) src dst ev)
    b3

end Cert.KernelIdeal.Val

end
-- ==== Proof.Region0.lean ====
/-
  Region 0 of the kernel program: the product of the node features [100000, 512] with the first weights [512, 16], 2000 rows a grid point (50 points). The array the region leaves is the whole product (Spec.lean `mm`) of the arrays it found.
-/
import proofs.«405061_j45071386805056_4_alg».proof.Proof.Gen.KernelIdeal.Frame
import proofs.«405061_j45071386805056_4_alg».proof.Proof.KerTerms
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember
import Idealize.ShloMosaic.PureOps.Ideal.Laws

set_option maxRecDepth 16384

noncomputable section

open scoped BigOperators

namespace Cert.KernelIdeal.Val

open Cert.KernelIdeal Cert.KernelIdeal.Gen Cert.KernelIdeal.Facts₀
open Idealize.ShloMosaic Idealize.ShloMosaic.TcCoe Idealize.ShloMosaic.ValueIdx Idealize.SL.Sem

/-- The two zero offsets of a whole-block access, as the constant function. -/
theorem k0_offsets_zero : (![0, 0] : Fin 2 → Nat) = fun _ => 0 := funext fun a => by fin_cases a <;> rfl

/-- What a grid point computes from its two blocks: the product accumulated into a block of zeros has no
    accumulator left, and a product that contracts the left factor's columns with the right factor's rows is, entry
    (a, b), the sum over l of x0[a, l] · x1[l, b]. So the payload is the stage's function `mm` of the two blocks. -/
theorem k0_pay1_eq_mm (x0 : Vec Ideal S2000x512 .f32) (x1 : Vec Ideal S512x16 .f32) :
    k0_pay1 (F := Ideal) x0 x1 = Cert.Spec.mm x0 x1 := by
  unfold k0_pay1
  show matmul dot_S2000x512_S512x16_S2000x16_1_0_0_1_n_n none x0 x1 (constant (F := Ideal) S2000x16 .f32 0x00000000#32) = _
  rw [matmul_zero_eq_dotGeneral]
  funext i
  obtain ⟨a, b, rfl⟩ : ∃ (a : Fin 2000) (b : Fin 16), i = ix2 a b := ⟨i 0, i 1, eq_ix2 i⟩
  exact StackMember.dotGeneral_plain_apply none x0 x1 a b

/-- A block of rows of a product is the product of that block of rows of the left factor with the whole right
    factor: entry j of the small product and entry i of the large one are the same sum over l as soon as row j 0 of x0
    is row i 0 of X and column j 1 of x1 is column i 1 of W. -/
theorem k0_rows_of_mm (x0 : Vec Ideal S2000x512 .f32) (x1 : Vec Ideal S512x16 .f32)
    (X : Vec Ideal S100000x512 .f32) (W : Vec Ideal S512x16 .f32) (j : S2000x16.Idx) (i : S100000x16.Idx)
    (hrow : ∀ l : Fin 512, x0 (ix2 (j 0 : Fin 2000) l) = X (ix2 (i 0 : Fin 100000) l))
    (hcol : ∀ l : Fin 512, x1 (ix2 l (j 1 : Fin 16)) = W (ix2 l (i 1 : Fin 16))) :
    Cert.Spec.mm x0 x1 j = Cert.Spec.mm X W i :=
  Finset.sum_congr rfl fun l _ => by rw [hrow l, hcol l]

/-- The three index maps over the 50 grid points: point t reads rows-block t of the features and writes rows-block t
    of the product, each over all its columns; the weights are fetched whole at every point. -/
theorem k0_index_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is rows-block t of the whole product of the two arrays the region found. -/
theorem k0_flushed_eq (V : Entry) (c : Dev nD) (t : Fin cfg0.N) :
    (Gen.dat0 V c).flushed 2 t
      = ((cfg0.win 2).blk t).view.read (Elt Ideal) (Cert.Spec.mm (V c main_arg0) (V c main_arg4)) := by
  show (cfg0.win 2).cut (grid0.coords t) ((Gen.dat0 V c).after 2 t) = _
  rw [Gen.after0_2]
  unfold Gen.out0_2
  rw [View.canon_unit_zero k0_offsets_zero]
  simp only [View.ld_unit_zero (S := S2000x512) k0_offsets_zero, View.ld_unit_zero (S := S512x16) k0_offsets_zero]
  rw [k0_pay1_eq_mm]
  obtain ⟨e0, e1, e2, e3, e4, e5⟩ := k0_index_facts t
  funext j
  refine k0_rows_of_mm (Gen.iblk0 V c 0 t) (Gen.iblk0 V c 1 t) (V c main_arg0) (V c main_arg4) j
    (((cfg0.win 2).blk t).view.emb j) (fun l => ?_) (fun l => ?_)
  · show V c main_arg0 (((cfg0.win 0).blk t).view.emb (ix2 (j 0 : Fin 2000) l))
      = V c main_arg0 (ix2 ((((cfg0.win 2).blk t).view.emb j) 0 : Fin 100000) l)
    refine congrArg (V c main_arg0) (funext fun a => Fin.ext ?_)
    match a with
    | ⟨0, _⟩ =>
      show win0_0.index t (0 : Fin 2) * 2000 + 1 * (j 0).val = win0_2.index t (0 : Fin 2) * 2000 + 1 * (j 0).val
      omega
    | ⟨1, _⟩ =>
      show win0_0.index t (1 : Fin 2) * 512 + 1 * l.val = l.val
      omega
  · show V c main_arg4 (((cfg0.win 1).blk t).view.emb (ix2 l (j 1 : Fin 16)))
      = V c main_arg4 (ix2 l ((((cfg0.win 2).blk t).view.emb j) 1 : Fin 16))
    refine congrArg (V c main_arg4) (funext fun a => Fin.ext ?_)
    match a with
    | ⟨0, _⟩ =>
      show win0_1.index t (0 : Fin 2) * 512 + 1 * l.val = l.val
      omega
    | ⟨1, _⟩ =>
      show win0_1.index t (1 : Fin 2) * 16 + 1 * (j 1).val = win0_2.index t (1 : Fin 2) * 16 + 1 * (j 1).val
      omega

/-- An index of the product lies in point t's block when, on each axis, its coordinate lies in the block's range. -/
theorem k0_mem_blk (t : Fin cfg0.N) (i : S100000x16.Idx) :
    i ∈ ((cfg0.win 2).blk t).view.set ↔ ∀ a : Fin 2, win0_2.index t a * S2000x16.size a ≤ (i a).val
      ∧ (i a).val < win0_2.index t a * S2000x16.size a + S2000x16.size a := by
  show i ∈ ((View.whole main_v0).slice (win0_2.rect t)).set ↔ _
  rw [View.set_slice_whole, Rect.mem_set_unit]
  exact Iff.rfl

/-- Every index of the product is written back by some point: row r by point r / 2000. -/
theorem k0_cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : grid0.N = 50 := N_0
  obtain ⟨t, ht⟩ : ∃ t : Fin cfg0.N, t.val = (i 0).val / 2000 :=
    ⟨⟨(i 0).val / 2000, by show (i 0).val / 2000 < grid0.N; omega⟩, rfl⟩
  obtain ⟨e0, e1, e2, e3, e4, e5⟩ := k0_index_facts t
  refine ⟨t, flush0_2 t, ?_⟩
  rw [k0_mem_blk]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 16 ≤ (i 1).val ∧ (i 1).val < win0_2.index t (1 : Fin 2) * 16 + 16
    omega

/-- The array region 0 leaves: every index of it lies in some grid point's block, and what a point writes back is
    that block of the stage's whole-array function. -/
theorem final0 (V : Entry) (c : Dev nD) :
    (Gen.dat0 V c).arrAt 2 cfg0.N = Cert.Spec.mm (V c main_arg0) (V c main_arg4) :=
  (Gen.dat0 V c).arrAt_eq_of_cover 2 (Cert.Spec.mm (V c main_arg0) (V c main_arg4))
    (fun t _ => k0_flushed_eq V c t) k0_cover

end Cert.KernelIdeal.Val

end
-- ==== Proof.Region1.lean ====
/-
  Region 1 of the kernel program: the first bias added along every row of the aggregated messages [100000, 16] and the leaky rectifier, 10000 rows a grid point (10 points). The array the region leaves is Spec.lean's `biasLeaky` of the arrays it found.
-/
import proofs.«405061_j45071386805056_4_alg».proof.Proof.Gen.KernelIdeal.Frame
import proofs.«405061_j45071386805056_4_alg».proof.Proof.KerTerms
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Cert.KernelIdeal.Facts₀
open Idealize.ShloMosaic Idealize.ShloMosaic.TcCoe Idealize.ShloMosaic.ValueIdx Idealize.SL.Sem

/-- A whole buffer of two axes is read and written at offset zero on both. -/
theorem biasLeaky16_offsets_block : (![0, 0] : Fin 2 → Nat) = fun _ => 0 := funext fun a => by fin_cases a <;> rfl

/-- The bias buffer is read whole, at offset zero. -/
theorem biasLeaky16_offsets_bias : (![0] : Fin 1 → Nat) = fun _ => 0 := funext fun a => by fin_cases a; rfl

/-- The body's arithmetic at one entry (p, q) of a block: the bias entry q is added to the block's entry, and the sum
    is kept where the float comparison with zero holds and multiplied by the slope elsewhere. The same-shape cast is
    the identity; the bias, cast to one row and laid down the rows, reads its entry q in every row. -/
theorem biasLeaky16_payload_apply (x0 : Vec Ideal S10000x16 .f32) (x1 : Vec Ideal S16 .f32) (p : Fin 10000) (q : Fin 16) :
    Gen.k1_pay1 (F := Ideal) x0 x1 (ix2 p q) = Cert.Spec.leaky (x0 (ix2 p q) + x1 (ix1 q)) := by
  unfold Gen.k1_pay1
  rw [select_apply, cmpf_apply, mulf_apply, addf_apply, broadcast_apply, broadcast_apply, shapeCast_self,
    broadcastTo_1b_ab_apply, shapeCast_a_1a_apply]
  rfl

/-- One entry of the stage's whole-array function, from the array entries it depends on: the rows array at an
    index k and the bias at k's column. -/
theorem biasLeaky16_entry_of_indices (X : S100000x16.Idx → EReal) (b : S16.Idx → EReal) (k0 k2 : S100000x16.Idx) (k1 : S16.Idx)
    (h0 : k0 = k2) (h1 : k1 = ix1 (k2 1 : Fin 16)) :
    Cert.Spec.leaky (X k0 + b k1) = Cert.Spec.biasLeaky X b k2 := by
  subst h0; subst h1; rfl

/-- The three index maps over the ten grid points: the rows window and the result window sit at block row t,
    column block 0; the bias window is the whole bias at every point. -/
theorem biasLeaky16_index_facts : ∀ t : Fin cfg1.N,
    win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What grid point t writes back is block t of the stage's whole-array function: entry (p, q) of the block is
    array row 10000 · t + p, column q, in the rows window and in the result window alike, and the bias window's
    entry q is the bias's entry q. -/
theorem biasLeaky16_flushed (V : Entry) (c : Dev nD) (t : Fin cfg1.N) :
    (Gen.dat1 V c).flushed 2 t
      = ((cfg1.win 2).blk t).view.read (Elt Ideal) (Cert.Spec.biasLeaky (V c main_v13) (V c main_arg5)) := by
  show (cfg1.win 2).cut (grid1.coords t) ((Gen.dat1 V c).after 2 t) = _
  rw [Gen.after1_2]
  unfold Gen.out1_2
  rw [View.canon_unit_zero biasLeaky16_offsets_block]
  simp only [View.ld_unit_zero (S := S10000x16) biasLeaky16_offsets_block, View.ld_unit_zero (S := S16) biasLeaky16_offsets_bias]
  obtain ⟨e00, e01, e10, e20, e21⟩ := biasLeaky16_index_facts t
  funext j
  obtain ⟨p, q, rfl⟩ : ∃ (p : Fin 10000) (q : Fin 16), j = ix2 p q := ⟨j 0, j 1, eq_ix2 j⟩
  show Gen.k1_pay1 (F := Ideal) (Gen.iblk1 V c 0 t) (Gen.iblk1 V c 1 t) (ix2 p q)
      = Cert.Spec.biasLeaky (V c main_v13) (V c main_arg5) (((cfg1.win 2).blk t).view.emb (ix2 p q))
  refine (biasLeaky16_payload_apply _ _ p q).trans ?_
  have hrows : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 16 + 1 * q.val = win1_2.index t (1 : Fin 2) * 16 + 1 * q.val; omega
  have hbias : ((cfg1.win 1).blk t).view.emb (ix1 q) = ix1 ((((cfg1.win 2).blk t).view.emb (ix2 p q)) 1 : Fin 16) := by
    funext a; apply Fin.ext
    match a with
    | ⟨0, _⟩ => show win1_1.index t (0 : Fin 1) * 16 + 1 * q.val = win1_2.index t (1 : Fin 2) * 16 + 1 * q.val; omega
  exact biasLeaky16_entry_of_indices (V c main_v13) (V c main_arg5) _ _ _ hrows hbias

/-- An index of the array lies in point t's block exactly when each coordinate lies in the block's range on its axis. -/
theorem biasLeaky16_mem_block (t : Fin cfg1.N) (i : S100000x16.Idx) :
    i ∈ ((cfg1.win 2).blk t).view.set ↔ ∀ a : Fin 2, win1_2.index t a * S10000x16.size a ≤ (i a).val
      ∧ (i a).val < win1_2.index t a * S10000x16.size a + S10000x16.size a := by
  show i ∈ ((View.whole main_v14).slice (win1_2.rect t)).set ↔ _
  rw [View.set_slice_whole, Rect.mem_set_unit]
  exact Iff.rfl

/-- Row r of the array lies in the block of grid point r / 10000, which writes its block back: the ten blocks of
    10000 rows tile the 100000 rows. -/
theorem biasLeaky16_cover (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : grid1.N = 10 := Gen.N_1
  obtain ⟨t, ht⟩ : ∃ t : Fin cfg1.N, t.val = (i 0).val / 10000 :=
    ⟨⟨(i 0).val / 10000, by show (i 0).val / 10000 < grid1.N; rw [hN]; omega⟩, rfl⟩
  obtain ⟨-, -, -, e20, e21⟩ := biasLeaky16_index_facts t
  refine ⟨t, Gen.flush1_2 t, ?_⟩
  rw [biasLeaky16_mem_block]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 16 ≤ (i 1).val ∧ (i 1).val < win1_2.index t (1 : Fin 2) * 16 + 16
    omega

/-- The array region 1 leaves: every index of it lies in some grid point's block, and what a point writes back is
    that block of the stage's whole-array function. -/
theorem final1 (V : Entry) (c : Dev nD) :
    (Gen.dat1 V c).arrAt 2 cfg1.N = Cert.Spec.biasLeaky (V c main_v13) (V c main_arg5) := by
  exact (Gen.dat1 V c).arrAt_eq_of_cover 2 _ (fun t _ => biasLeaky16_flushed V c t) biasLeaky16_cover

end Cert.KernelIdeal.Val

end
-- ==== Proof.Region2.lean ====
/-
  Region 2 of the kernel program: the product of the first hidden layer [100000, 16] with the second weights [16, 64], 2000 rows a grid point (50 points). The array the region leaves is the whole product (Spec.lean `mm`) of the arrays it found.
-/
import proofs.«405061_j45071386805056_4_alg».proof.Proof.Gen.KernelIdeal.Frame
import proofs.«405061_j45071386805056_4_alg».proof.Proof.KerTerms
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

set_option maxRecDepth 16384

noncomputable section

open scoped BigOperators

namespace Cert.KernelIdeal.Val

open Cert.KernelIdeal Cert.KernelIdeal.Gen Cert.KernelIdeal.Facts₀
open Idealize.ShloMosaic Idealize.ShloMosaic.TcCoe Idealize.ShloMosaic.ValueIdx Idealize.SL.Sem

/-- A whole-buffer access starts at offset zero on both axes. -/
theorem region2_offsets_zero : (![0, 0] : Fin 2 → Nat) = fun _ => 0 :=
  funext fun a => match a with | ⟨0, _⟩ => rfl | ⟨1, _⟩ => rfl

/-- What the body stores, as one function of the two blocks it loads: the cast of the left block to its own shape is
    the block; the product accumulated onto a zero splat is the product with no accumulator; and its dimension numbers
    (contract the left operand's axis 1 with the right operand's axis 0, batch nothing) are the plain product's, whose
    entry (a, b) is the sum over l of x0[a, l] · x1[l, b]. -/
theorem region2_payload_eq_mm (x0 : Vec Ideal S2000x16 .f32) (x1 : Vec Ideal S16x64 .f32) :
    Gen.k2_pay1 (F := Ideal) x0 x1 = Cert.Spec.mm x0 x1 := by
  unfold Gen.k2_pay1
  simp only [shapeCast_self]
  rw [matmul_zero_eq_dotGeneral]
  funext i
  obtain ⟨a, b, rfl⟩ : ∃ (a : Fin 2000) (b : Fin 64), i = ix2 a b := ⟨i 0, i 1, eq_ix2 i⟩
  exact StackMember.dotGeneral_plain_apply none x0 x1 a b

/-- The product read through index maps. Let the left operand be read through e0 and the right one through e1, and
    let these send, for every contracted coordinate l, the places (a, l) and (l, b) to (row of i, l) and
    (l, column of i). Then entry (a, b) of the product of what is read is entry i of the whole product: the two
    sums agree term by term. -/
theorem region2_mm_read_through {n k p n' p' : Nat} (X : Cert.Spec.Mat n k) (W : Cert.Spec.Mat k p)
    (e0 : (⟨2, ![n', k]⟩ : Shape).Idx → (⟨2, ![n, k]⟩ : Shape).Idx)
    (e1 : (⟨2, ![k, p']⟩ : Shape).Idx → (⟨2, ![k, p]⟩ : Shape).Idx)
    (a : Fin n') (b : Fin p') (i : (⟨2, ![n, p]⟩ : Shape).Idx)
    (h0 : ∀ l : Fin k, e0 (ix2 a l) = ix2 (i 0) l) (h1 : ∀ l : Fin k, e1 (ix2 l b) = ix2 l (i 1)) :
    Cert.Spec.mm (fun y => X (e0 y)) (fun y => W (e1 y)) (ix2 a b) = Cert.Spec.mm X W i :=
  Finset.sum_congr rfl fun l _ => congrArg₂ (· * ·) (congrArg X (h0 l)) (congrArg W (h1 l))

/-- The three index maps at every grid point: point t takes row block t of the left operand and of the result, and
    the whole right operand (block 0 on both axes) every time. -/
theorem region2_index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product: entry (p, q) of the block product sums, over l, row
    t·2000 + p of the left array at column l times row l of the weights at column q, and that is entry
    (t·2000 + p, q) of the whole product — the same sum, the same index on both sides. -/
theorem region2_flushed_eq (V : Entry) (c : Dev nD) (t : Fin cfg2.N) :
    (Gen.dat2 V c).flushed 2 t
      = ((cfg2.win 2).blk t).view.read (Elt Ideal) (Cert.Spec.mm (V c main_v14) (V c main_arg6)) := by
  show (cfg2.win 2).cut (grid2.coords t) ((Gen.dat2 V c).after 2 t) = _
  rw [Gen.after2_2]
  unfold Gen.out2_2
  rw [View.canon_unit_zero region2_offsets_zero]
  simp only [View.ld_unit_zero (S := S2000x16) region2_offsets_zero, View.ld_unit_zero (S := S16x64) region2_offsets_zero]
  rw [region2_payload_eq_mm]
  obtain ⟨e00, e01, e10, e11, e20, e21⟩ := region2_index_maps t
  funext j
  obtain ⟨p, q, rfl⟩ : ∃ (p : Fin 2000) (q : Fin 64), j = ix2 p q := ⟨j 0, j 1, eq_ix2 j⟩
  have h0 : ∀ l : Fin 16, ((cfg2.win 0).blk t).view.emb (ix2 p l)
      = ix2 ((((cfg2.win 2).blk t).view.emb (ix2 p q)) 0) l := by
    intro l; funext a; apply Fin.ext
    match a with
    | ⟨0, _⟩ =>
      show win2_0.index t (0 : Fin 2) * 2000 + 1 * p.val = win2_2.index t (0 : Fin 2) * 2000 + 1 * p.val
      omega
    | ⟨1, _⟩ =>
      show win2_0.index t (1 : Fin 2) * 16 + 1 * l.val = l.val
      omega
  have h1 : ∀ l : Fin 16, ((cfg2.win 1).blk t).view.emb (ix2 l q)
      = ix2 l ((((cfg2.win 2).blk t).view.emb (ix2 p q)) 1) := by
    intro l; funext a; apply Fin.ext
    match a with
    | ⟨0, _⟩ =>
      show win2_1.index t (0 : Fin 2) * 16 + 1 * l.val = l.val
      omega
    | ⟨1, _⟩ =>
      show win2_1.index t (1 : Fin 2) * 64 + 1 * q.val = win2_2.index t (1 : Fin 2) * 64 + 1 * q.val
      omega
  exact region2_mm_read_through (n := 100000) (k := 16) (p := 64) (n' := 2000) (p' := 64)
    (V c main_v14) (V c main_arg6) ((cfg2.win 0).blk t).view.emb ((cfg2.win 1).blk t).view.emb p q
    (((cfg2.win 2).blk t).view.emb (ix2 p q)) h0 h1

/-- An index of the result array is in point t's block iff each coordinate is in the block's range on its axis. -/
theorem region2_mem_block (t : Fin cfg2.N) (i : S100000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v15).slice (win2_2.rect t)).set ↔ _
  rw [View.set_slice_whole, Rect.mem_set_unit]
  exact Iff.rfl

/-- Every index of the result array is written back by some point: row r lies in row block r / 2000, and a block
    spans all 64 columns. -/
theorem region2_cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 50 := Gen.N_2
  obtain ⟨t, ht⟩ : ∃ t : Fin cfg2.N, t.val = (i 0).val / 2000 := ⟨⟨(i 0).val / 2000, by omega⟩, rfl⟩
  obtain ⟨-, -, -, -, e20, e21⟩ := region2_index_maps t
  refine ⟨t, Gen.flush2_2 t, ?_⟩
  rw [region2_mem_block]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 64 ≤ (i 1).val ∧ (i 1).val < win2_2.index t (1 : Fin 2) * 64 + 64
    omega

/-- The array region 2 leaves: every index of it lies in some grid point's block, and what a point writes back is
    that block of the stage's whole-array function. -/
theorem final2 (V : Entry) (c : Dev nD) :
    (Gen.dat2 V c).arrAt 2 cfg2.N = Cert.Spec.mm (V c main_v14) (V c main_arg6) :=
  (Gen.dat2 V c).arrAt_eq_of_cover 2 _ (fun t _ => region2_flushed_eq V c t) region2_cover

end Cert.KernelIdeal.Val

end
-- ==== Proof.Region3.lean ====
/-
  Region 3 of the kernel program: the second bias added along every row of the aggregated messages [100000, 64] and the leaky rectifier, 10000 rows a grid point (10 points). The array the region leaves is Spec.lean's `biasLeaky` of the arrays it found.
-/
import proofs.«405061_j45071386805056_4_alg».proof.Proof.Gen.KernelIdeal.Frame
import proofs.«405061_j45071386805056_4_alg».proof.Proof.KerTerms
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Cert.KernelIdeal.Facts₀
open Idealize.ShloMosaic Idealize.ShloMosaic.TcCoe Idealize.ShloMosaic.ValueIdx Idealize.SL.Sem

/-- A whole buffer of two axes is read and written at offset zero on both. -/
theorem biasLeaky64_offsets_block : (![0, 0] : Fin 2 → Nat) = fun _ => 0 := funext fun a => by fin_cases a <;> rfl

/-- The bias buffer is read whole, at offset zero. -/
theorem biasLeaky64_offsets_bias : (![0] : Fin 1 → Nat) = fun _ => 0 := funext fun a => by fin_cases a; rfl

/-- The body's arithmetic at one entry (p, q) of a block of width 64: the bias entry q is added to the block's entry,
    and the sum is kept where the float comparison with zero holds and multiplied by the slope elsewhere. The
    same-shape cast is the identity; the bias, cast to one row and laid down the rows, reads its entry q in every row. -/
theorem biasLeaky64_payload_apply (x0 : Vec Ideal S10000x64 .f32) (x1 : Vec Ideal S64 .f32) (p : Fin 10000) (q : Fin 64) :
    Gen.k3_pay1 (F := Ideal) x0 x1 (ix2 p q) = Cert.Spec.leaky (x0 (ix2 p q) + x1 (ix1 q)) := by
  unfold Gen.k3_pay1
  rw [select_apply, cmpf_apply, mulf_apply, addf_apply, broadcast_apply, broadcast_apply, shapeCast_self,
    broadcastTo_1b_ab_apply, shapeCast_a_1a_apply]
  rfl

/-- One entry of the stage's whole-array function, from the array entries it depends on: the rows array at an
    index k and the bias at k's column. -/
theorem biasLeaky64_entry_of_indices (X : S100000x64.Idx → EReal) (b : S64.Idx → EReal) (k0 k2 : S100000x64.Idx) (k1 : S64.Idx)
    (h0 : k0 = k2) (h1 : k1 = ix1 (k2 1 : Fin 64)) :
    Cert.Spec.leaky (X k0 + b k1) = Cert.Spec.biasLeaky X b k2 := by
  subst h0; subst h1; rfl

/-- The three index maps over the ten grid points: the rows window and the result window sit at block row t,
    column block 0; the bias window is the whole bias at every point. -/
theorem biasLeaky64_index_facts : ∀ t : Fin cfg3.N,
    win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- What grid point t writes back is block t of the stage's whole-array function: entry (p, q) of the block is
    array row 10000 · t + p, column q, in the rows window and in the result window alike, and the bias window's
    entry q is the bias's entry q. -/
theorem biasLeaky64_flushed (V : Entry) (c : Dev nD) (t : Fin cfg3.N) :
    (Gen.dat3 V c).flushed 2 t
      = ((cfg3.win 2).blk t).view.read (Elt Ideal) (Cert.Spec.biasLeaky (V c main_v28) (V c main_arg7)) := by
  show (cfg3.win 2).cut (grid3.coords t) ((Gen.dat3 V c).after 2 t) = _
  rw [Gen.after3_2]
  unfold Gen.out3_2
  rw [View.canon_unit_zero biasLeaky64_offsets_block]
  simp only [View.ld_unit_zero (S := S10000x64) biasLeaky64_offsets_block, View.ld_unit_zero (S := S64) biasLeaky64_offsets_bias]
  obtain ⟨e00, e01, e10, e20, e21⟩ := biasLeaky64_index_facts t
  funext j
  obtain ⟨p, q, rfl⟩ : ∃ (p : Fin 10000) (q : Fin 64), j = ix2 p q := ⟨j 0, j 1, eq_ix2 j⟩
  show Gen.k3_pay1 (F := Ideal) (Gen.iblk3 V c 0 t) (Gen.iblk3 V c 1 t) (ix2 p q)
      = Cert.Spec.biasLeaky (V c main_v28) (V c main_arg7) (((cfg3.win 2).blk t).view.emb (ix2 p q))
  refine (biasLeaky64_payload_apply _ _ p q).trans ?_
  have hrows : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 64 + 1 * q.val = win3_2.index t (1 : Fin 2) * 64 + 1 * q.val; omega
  have hbias : ((cfg3.win 1).blk t).view.emb (ix1 q) = ix1 ((((cfg3.win 2).blk t).view.emb (ix2 p q)) 1 : Fin 64) := by
    funext a; apply Fin.ext
    match a with
    | ⟨0, _⟩ => show win3_1.index t (0 : Fin 1) * 64 + 1 * q.val = win3_2.index t (1 : Fin 2) * 64 + 1 * q.val; omega
  exact biasLeaky64_entry_of_indices (V c main_v28) (V c main_arg7) _ _ _ hrows hbias

/-- An index of the array lies in point t's block exactly when each coordinate lies in the block's range on its axis. -/
theorem biasLeaky64_mem_block (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v29).slice (win3_2.rect t)).set ↔ _
  rw [View.set_slice_whole, Rect.mem_set_unit]
  exact Iff.rfl

/-- Row r of the array lies in the block of grid point r / 10000, which writes its block back: the ten blocks of
    10000 rows tile the 100000 rows. -/
theorem biasLeaky64_cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 10 := Gen.N_3
  obtain ⟨t, ht⟩ : ∃ t : Fin cfg3.N, t.val = (i 0).val / 10000 :=
    ⟨⟨(i 0).val / 10000, by show (i 0).val / 10000 < grid3.N; rw [hN]; omega⟩, rfl⟩
  obtain ⟨-, -, -, e20, e21⟩ := biasLeaky64_index_facts t
  refine ⟨t, Gen.flush3_2 t, ?_⟩
  rw [biasLeaky64_mem_block]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 64 ≤ (i 1).val ∧ (i 1).val < win3_2.index t (1 : Fin 2) * 64 + 64
    omega

/-- The array region 3 leaves: every index of it lies in some grid point's block, and what a point writes back is
    that block of the stage's whole-array function. -/
theorem final3 (V : Entry) (c : Dev nD) :
    (Gen.dat3 V c).arrAt 2 cfg3.N = Cert.Spec.biasLeaky (V c main_v28) (V c main_arg7) := by
  exact (Gen.dat3 V c).arrAt_eq_of_cover 2 _ (fun t _ => biasLeaky64_flushed V c t) biasLeaky64_cover

end Cert.KernelIdeal.Val

end
-- ==== Proof.Region4.lean ====
/-
  Region 4 of the kernel program: the product of the second hidden layer [100000, 64] with the third weights [64, 16], 2000 rows a grid point (50 points). The array the region leaves is the whole product (Spec.lean `mm`) of the arrays it found.
-/
import proofs.«405061_j45071386805056_4_alg».proof.Proof.Gen.KernelIdeal.Frame
import proofs.«405061_j45071386805056_4_alg».proof.Proof.KerTerms
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

set_option maxRecDepth 16384

noncomputable section

open scoped BigOperators

namespace Cert.KernelIdeal.Val

open Cert.KernelIdeal Cert.KernelIdeal.Gen Cert.KernelIdeal.Facts₀
open Idealize.ShloMosaic Idealize.ShloMosaic.TcCoe Idealize.ShloMosaic.ValueIdx Idealize.SL.Sem

/-- A whole-buffer access starts at offset zero on both axes. -/
theorem region4_offsets_zero : (![0, 0] : Fin 2 → Nat) = fun _ => 0 :=
  funext fun a => match a with | ⟨0, _⟩ => rfl | ⟨1, _⟩ => rfl

/-- What the body stores, as one function of the two blocks it loads: the cast of the left block to its own shape is
    the block; the product accumulated onto a zero splat is the product with no accumulator; and its dimension numbers
    (contract the left operand's axis 1 with the right operand's axis 0, batch nothing) are the plain product's, whose
    entry (a, b) is the sum over l of x0[a, l] · x1[l, b]. -/
theorem region4_payload_eq_mm (x0 : Vec Ideal S2000x64 .f32) (x1 : Vec Ideal S64x16 .f32) :
    Gen.k4_pay1 (F := Ideal) x0 x1 = Cert.Spec.mm x0 x1 := by
  unfold Gen.k4_pay1
  simp only [shapeCast_self]
  rw [matmul_zero_eq_dotGeneral]
  funext i
  obtain ⟨a, b, rfl⟩ : ∃ (a : Fin 2000) (b : Fin 16), i = ix2 a b := ⟨i 0, i 1, eq_ix2 i⟩
  exact StackMember.dotGeneral_plain_apply none x0 x1 a b

/-- The product read through index maps. Let the left operand be read through e0 and the right one through e1, and
    let these send, for every contracted coordinate l, the places (a, l) and (l, b) to (row of i, l) and
    (l, column of i). Then entry (a, b) of the product of what is read is entry i of the whole product: the two
    sums agree term by term. -/
theorem region4_mm_read_through {n k p n' p' : Nat} (X : Cert.Spec.Mat n k) (W : Cert.Spec.Mat k p)
    (e0 : (⟨2, ![n', k]⟩ : Shape).Idx → (⟨2, ![n, k]⟩ : Shape).Idx)
    (e1 : (⟨2, ![k, p']⟩ : Shape).Idx → (⟨2, ![k, p]⟩ : Shape).Idx)
    (a : Fin n') (b : Fin p') (i : (⟨2, ![n, p]⟩ : Shape).Idx)
    (h0 : ∀ l : Fin k, e0 (ix2 a l) = ix2 (i 0) l) (h1 : ∀ l : Fin k, e1 (ix2 l b) = ix2 l (i 1)) :
    Cert.Spec.mm (fun y => X (e0 y)) (fun y => W (e1 y)) (ix2 a b) = Cert.Spec.mm X W i :=
  Finset.sum_congr rfl fun l _ => congrArg₂ (· * ·) (congrArg X (h0 l)) (congrArg W (h1 l))

/-- The three index maps at every grid point: point t takes row block t of the left operand and of the result, and
    the whole right operand (block 0 on both axes) every time. -/
theorem region4_index_maps : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the whole product: entry (p, q) of the block product sums, over l, row
    t·2000 + p of the left array at column l times row l of the weights at column q, and that is entry
    (t·2000 + p, q) of the whole product — the same sum, the same index on both sides. -/
theorem region4_flushed_eq (V : Entry) (c : Dev nD) (t : Fin cfg4.N) :
    (Gen.dat4 V c).flushed 2 t
      = ((cfg4.win 2).blk t).view.read (Elt Ideal) (Cert.Spec.mm (V c main_v29) (V c main_arg8)) := by
  show (cfg4.win 2).cut (grid4.coords t) ((Gen.dat4 V c).after 2 t) = _
  rw [Gen.after4_2]
  unfold Gen.out4_2
  rw [View.canon_unit_zero region4_offsets_zero]
  simp only [View.ld_unit_zero (S := S2000x64) region4_offsets_zero, View.ld_unit_zero (S := S64x16) region4_offsets_zero]
  rw [region4_payload_eq_mm]
  obtain ⟨e00, e01, e10, e11, e20, e21⟩ := region4_index_maps t
  funext j
  obtain ⟨p, q, rfl⟩ : ∃ (p : Fin 2000) (q : Fin 16), j = ix2 p q := ⟨j 0, j 1, eq_ix2 j⟩
  have h0 : ∀ l : Fin 64, ((cfg4.win 0).blk t).view.emb (ix2 p l)
      = ix2 ((((cfg4.win 2).blk t).view.emb (ix2 p q)) 0) l := by
    intro l; funext a; apply Fin.ext
    match a with
    | ⟨0, _⟩ =>
      show win4_0.index t (0 : Fin 2) * 2000 + 1 * p.val = win4_2.index t (0 : Fin 2) * 2000 + 1 * p.val
      omega
    | ⟨1, _⟩ =>
      show win4_0.index t (1 : Fin 2) * 64 + 1 * l.val = l.val
      omega
  have h1 : ∀ l : Fin 64, ((cfg4.win 1).blk t).view.emb (ix2 l q)
      = ix2 l ((((cfg4.win 2).blk t).view.emb (ix2 p q)) 1) := by
    intro l; funext a; apply Fin.ext
    match a with
    | ⟨0, _⟩ =>
      show win4_1.index t (0 : Fin 2) * 64 + 1 * l.val = l.val
      omega
    | ⟨1, _⟩ =>
      show win4_1.index t (1 : Fin 2) * 16 + 1 * q.val = win4_2.index t (1 : Fin 2) * 16 + 1 * q.val
      omega
  exact region4_mm_read_through (n := 100000) (k := 64) (p := 16) (n' := 2000) (p' := 16)
    (V c main_v29) (V c main_arg8) ((cfg4.win 0).blk t).view.emb ((cfg4.win 1).blk t).view.emb p q
    (((cfg4.win 2).blk t).view.emb (ix2 p q)) h0 h1

/-- An index of the result array is in point t's block iff each coordinate is in the block's range on its axis. -/
theorem region4_mem_block (t : Fin cfg4.N) (i : S100000x16.Idx) :
    i ∈ ((cfg4.win 2).blk t).view.set ↔ ∀ a : Fin 2, win4_2.index t a * S2000x16.size a ≤ (i a).val
      ∧ (i a).val < win4_2.index t a * S2000x16.size a + S2000x16.size a := by
  show i ∈ ((View.whole main_v30).slice (win4_2.rect t)).set ↔ _
  rw [View.set_slice_whole, Rect.mem_set_unit]
  exact Iff.rfl

/-- Every index of the result array is written back by some point: row r lies in row block r / 2000, and a block
    spans all 16 columns. -/
theorem region4_cover (i : S100000x16.Idx) :
    ∃ t : Fin cfg4.N, (cfg4.win 2).flush t = true ∧ i ∈ ((cfg4.win 2).blk t).view.set := by
  have hi0 : (i 0).val < 100000 := (i 0).isLt
  have hi1 : (i 1).val < 16 := (i 1).isLt
  have hN : cfg4.N = 50 := Gen.N_4
  obtain ⟨t, ht⟩ : ∃ t : Fin cfg4.N, t.val = (i 0).val / 2000 := ⟨⟨(i 0).val / 2000, by omega⟩, rfl⟩
  obtain ⟨-, -, -, -, e20, e21⟩ := region4_index_maps t
  refine ⟨t, Gen.flush4_2 t, ?_⟩
  rw [region4_mem_block]
  intro a
  match a with
  | ⟨0, _⟩ =>
    show win4_2.index t (0 : Fin 2) * 2000 ≤ (i 0).val ∧ (i 0).val < win4_2.index t (0 : Fin 2) * 2000 + 2000
    omega
  | ⟨1, _⟩ =>
    show win4_2.index t (1 : Fin 2) * 16 ≤ (i 1).val ∧ (i 1).val < win4_2.index t (1 : Fin 2) * 16 + 16
    omega

/-- The array region 4 leaves: every index of it lies in some grid point's block, and what a point writes back is
    that block of the stage's whole-array function. -/
theorem final4 (V : Entry) (c : Dev nD) :
    (Gen.dat4 V c).arrAt 2 cfg4.N = Cert.Spec.mm (V c main_v29) (V c main_arg8) :=
  (Gen.dat4 V c).arrAt_eq_of_cover 2 _ (fun t _ => region4_flushed_eq V c t) region4_cover

end Cert.KernelIdeal.Val

end
-- ==== Proof.Region5.lean ====
/-
  Region 5 of the kernel program: the third bias added along every row of the aggregated messages [100000, 16] and the row-wise log-softmax, 10000 rows a grid point (10 points). The array the region leaves is Spec.lean's `biasLogSoftmax` of the arrays it found.
-/
import proofs.«405061_j45071386805056_4_alg».proof.Proof.Gen.KernelIdeal.Frame
import proofs.«405061_j45071386805056_4_alg».proof.Proof.KerTerms
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Cert.KernelIdeal.Facts₀
open Idealize.ShloMosaic Idealize.ShloMosaic.TcCoe Idealize.ShloMosaic.ValueIdx Idealize.SL.Sem

/-! ## Layout: a column of row values laid along the rows -/

/-- An `[a]` array cast to `[a, 1]` reads, at `(i, u)`, the operand at `i`, whatever the unit coordinate `u`. -/
theorem region5_shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(r, k)`, the operand's one entry of row `r`. -/
theorem region5_broadcastTo_a1_ab_apply {α : Type} {a b : ℕ} (v : (⟨2, ![a, 1]⟩ : Shape).Idx → α)
    (h : (⟨2, ![a, 1]⟩ : Shape).Broadcasts ⟨2, ![a, b]⟩) (r : Fin a) (k : Fin b) :
    broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- The exponential of a vector, read at an index, at the extended reals. -/
theorem region5_exp_apply {s : Shape} (a : FVec Ideal s .f32) (i : s.Idx) : exp a i = Ideal.exp (a i) := rfl
/-- The logarithm of a vector, read at an index, at the extended reals. -/
theorem region5_log_apply {s : Shape} (a : FVec Ideal s .f32) (i : s.Idx) : log a i = Ideal.log (a i) := rfl

/-! ## The two row reductions of a block -/

/-- The index of a [10000, 16] block over row `r` with column `k` put back on the reduced axis is `(r, k)`. -/
theorem region5_lift_row (h : S10000x16.Reduces [1] S10000) (r : Fin 10000) (k : Fin 16) : h.lift (ix1 r) k = ix2 r k :=
  funext fun a => Fin.ext (by match a with | ⟨0, _⟩ => rfl | ⟨1, _⟩ => rfl)

/-- The block's maximum along the columns, from the word of −∞, at row `r`: that row's maximum as the stage states it. -/
theorem region5_rowMax_block (Y : FVec Ideal S10000x16 .f32) (h : S10000x16.Reduces [1] S10000) (r : Fin 10000) :
    multiReduction .maximumf [1] S10000 Y 0xFF800000#32 h (.inl rfl) rfl (ix1 r)
      = Cert.Spec.rowMax (n := 10000) (p := 16) Y r :=
  (Ideal.multiReduction_maximumf_single Y 0xFF800000#32 h (.inl rfl) rfl (ix1 r)).trans
    (Finset.fold_congr fun k _ => congrArg Y (region5_lift_row h r k))

/-- The block's sum along the columns, from zero, at row `r`: the sum of that row's 16 entries. -/
theorem region5_rowSum_block (Z : FVec Ideal S10000x16 .f32) (h : S10000x16.Reduces [1] S10000) (r : Fin 10000) :
    multiReduction .add [1] S10000 Z 0x00000000#32 h (.inl rfl) rfl (ix1 r) = ∑ k : Fin 16, Z (ix2 r k) :=
  (Ideal.multiReduction_add_single Z 0x00000000#32 h (.inl rfl) rfl (ix1 r)).trans
    (Finset.sum_congr rfl fun k _ => congrArg Z (region5_lift_row h r k))

/-! ## The body's arithmetic on one block -/

/-- The bias laid along the block's rows and added: entry (r, k) of the block plus entry k of the bias. -/
theorem region5_biased_block (x0 : FVec Ideal S10000x16 .f32) (x1 : FVec Ideal S16 .f32) (h1 : S10000x16.ShapeCasts S10000x16)
    (h2 : S16.ShapeCasts S1x16) (h3 : S1x16.Broadcasts S10000x16) :
    addf (shapeCast S10000x16 x0 h1) (broadcastTo S10000x16 (shapeCast S1x16 x1 h2) h3)
      = fun i => x0 i + x1 (ix1 (i 1 : Fin 16)) := by
  funext j
  obtain ⟨r, k, rfl⟩ : ∃ (r : Fin 10000) (k : Fin 16), j = ix2 r k := ⟨j 0, j 1, eq_ix2 j⟩
  rw [addf_apply, shapeCast_self, broadcastTo_1b_ab_apply, shapeCast_a_1a_apply]

/-- What the body does after the bias — row maximum, shift, exponential, row sum, logarithm, shift — is the stage's
    row-wise log-softmax of the block: entry (r, q) reads row r's maximum and row r's sum through the column of
    row values laid back along the rows. -/
theorem region5_rowOps_eq_logSoftmax (Y : FVec Ideal S10000x16 .f32) (hr : S10000x16.Reduces [1] S10000)
    (hc : S10000.ShapeCasts S10000x1) (hb : S10000x1.Broadcasts S10000x16) :
    subf (subf Y (broadcastTo S10000x16 (shapeCast S10000x1 (multiReduction .maximumf [1] S10000 Y 0xFF800000#32 hr (.inl rfl) rfl) hc) hb))
        (broadcastTo S10000x16 (log (shapeCast S10000x1 (multiReduction .add [1] S10000
          (exp (subf Y (broadcastTo S10000x16 (shapeCast S10000x1 (multiReduction .maximumf [1] S10000 Y 0xFF800000#32 hr (.inl rfl) rfl) hc) hb)))
          0x00000000#32 hr (.inl rfl) rfl) hc)) hb)
      = Cert.Spec.logSoftmax (n := 10000) (p := 16) Y := by
  funext j
  obtain ⟨r, q, rfl⟩ : ∃ (r : Fin 10000) (q : Fin 16), j = ix2 r q := ⟨j 0, j 1, eq_ix2 j⟩
  have hmax : ∀ k : Fin 16, broadcastTo S10000x16 (shapeCast S10000x1
      (multiReduction .maximumf [1] S10000 Y 0xFF800000#32 hr (.inl rfl) rfl) hc) hb (ix2 r k)
      = Cert.Spec.rowMax (n := 10000) (p := 16) Y r := fun k => by
    rw [region5_broadcastTo_a1_ab_apply, region5_shapeCast_a_a1_apply]
    exact region5_rowMax_block Y hr r
  simp only [subf_apply, hmax, region5_broadcastTo_a1_ab_apply, region5_log_apply, region5_shapeCast_a_a1_apply]
  rw [region5_rowSum_block]
  simp only [region5_exp_apply, subf_apply, hmax]
  rfl

/-- The body's payload is the stage's function of the two blocks it loaded. -/
theorem region5_payload_eq (x0 : Vec Ideal S10000x16 .f32) (x1 : Vec Ideal S16 .f32) :
    Gen.k5_pay1 (F := Ideal) x0 x1 = Cert.Spec.biasLogSoftmax (n := 10000) (p := 16) x0 x1 :=
  (region5_rowOps_eq_logSoftmax _ _ _ _).trans (congrArg (Cert.Spec.logSoftmax (n := 10000) (p := 16)) (region5_biased_block x0 x1 _ _ _))

/-! ## A row of the stage depends on that row only -/

/-- Two matrices that agree along one row of each have the same log-softmax along it. -/
theorem region5_logSoftmax_row_congr {n' n p : ℕ} (Y' : Cert.Spec.Mat n' p) (Y : Cert.Spec.Mat n p) (r' : Fin n') (r : Fin n)
    (h : ∀ k : Fin p, Y' (ix2 r' k) = Y (ix2 r k)) (q : Fin p) :
    Cert.Spec.logSoftmax Y' (ix2 r' q) = Cert.Spec.logSoftmax Y (ix2 r q) := by
  have hm : Cert.Spec.rowMax Y' r' = Cert.Spec.rowMax Y r := Finset.fold_congr fun k _ => h k
  show (Y' (ix2 r' q) - Cert.Spec.rowMax Y' r') - Ideal.log (∑ k : Fin p, Ideal.exp (Y' (ix2 r' k) - Cert.Spec.rowMax Y' r'))
    = (Y (ix2 r q) - Cert.Spec.rowMax Y r) - Ideal.log (∑ k : Fin p, Ideal.exp (Y (ix2 r k) - Cert.Spec.rowMax Y r))
  simp only [hm, h]

/-- So the stage of a matrix and a bias, along a row, is the stage of any other pair that agrees with them along that
    row and in the bias. -/
theorem region5_biasLogSoftmax_row_congr {n' n p : ℕ} (X' : Cert.Spec.Mat n' p) (b' : Cert.Spec.Row p) (X : Cert.Spec.Mat n p)
    (b : Cert.Spec.Row p) (j : (⟨2, ![n', p]⟩ : Shape).Idx) (i : (⟨2, ![n, p]⟩ : Shape).Idx) (hcol : i 1 = j 1)
    (hX : ∀ k : Fin p, X' (ix2 (j 0) k) = X (ix2 (i 0) k)) (hb : ∀ k : Fin p, b' (ix1 k) = b (ix1 k)) :
    Cert.Spec.biasLogSoftmax X' b' j = Cert.Spec.biasLogSoftmax X b i := by
  obtain ⟨r', q', rfl⟩ : ∃ (r' : Fin n') (q' : Fin p), j = ix2 r' q' := ⟨j 0, j 1, eq_ix2 j⟩
  obtain ⟨r, q, rfl⟩ : ∃ (r : Fin n) (q : Fin p), i = ix2 r q := ⟨i 0, i 1, eq_ix2 i⟩
  obtain rfl : q = q' := hcol
  exact region5_logSoftmax_row_congr _ _ r' r (fun k => by
    show X' (ix2 r' k) + b' (ix1 k) = X (ix2 r k) + b (ix1 k)
    rw [show X' (ix2 r' k) = X (ix2 r k) from hX k, hb k]) q

/-! ## The windows' blocks as rows of the arrays -/

/-- The body reads and writes its staging buffers whole: the accesses' offsets are zero on both axes, -/
theorem region5_offsets_zero2 : (![0, 0] : Fin 2 → Nat) = fun _ => 0 := funext fun a => by fin_cases a <;> rfl
/-- and on the bias's one axis. -/
theorem region5_offsets_zero1 : (![0] : Fin 1 → Nat) = fun _ => 0 := funext fun a => by fin_cases a; rfl

/-- The index maps over the grid's ten points: the input block and the output block are the same ten thousand rows,
    point t's block is block t, the column block is the only one, and the bias is fetched whole at every point. -/
theorem region5_index_facts : ∀ t : Fin cfg5.N, win5_0.index t (0 : Fin 2) = win5_2.index t (0 : Fin 2)
    ∧ win5_0.index t (1 : Fin 2) = 0
    ∧ win5_1.index t (0 : Fin 1) = 0
    ∧ win5_2.index t (1 : Fin 2) = 0
    ∧ win5_2.index t (0 : Fin 2) = t.val :=
  (by decide +kernel : ∀ t : Fin grid5.N, _)

/-- Entry y of point t's input block is the entry of the aggregated messages at row (block index · 10000 + y's row)
    and y's column. -/
theorem region5_iblk0_apply (V : Entry) (c : Dev nD) (t : Fin cfg5.N) (y : S10000x16.Idx) (i : S100000x16.Idx)
    (h0 : (i 0).val = win5_0.index t (0 : Fin 2) * 10000 + (y 0).val) (h1 : (i 1).val = (y 1).val) :
    Gen.iblk5 V c 0 t y = V c main_v43 i := by
  obtain ⟨-, e1, -, -, -⟩ := region5_index_facts t
  show V c main_v43 (((cfg5.win 0).blk t).view.emb y) = V c main_v43 i
  congr 1
  funext a; apply Fin.ext
  match a with
  | ⟨0, _⟩ => show win5_0.index t (0 : Fin 2) * 10000 + 1 * (y 0).val = (i 0).val; omega
  | ⟨1, _⟩ => show win5_0.index t (1 : Fin 2) * 16 + 1 * (y 1).val = (i 1).val; omega

/-- Point t's bias block is the whole bias. -/
theorem region5_iblk1_apply (V : Entry) (c : Dev nD) (t : Fin cfg5.N) (k : Fin 16) :
    Gen.iblk5 V c 1 t (ix1 k) = V c main_arg9 (ix1 k) := by
  obtain ⟨-, -, e2, -, -⟩ := region5_index_facts t
  show V c main_arg9 (((cfg5.win 1).blk t).view.emb (ix1 k)) = V c main_arg9 (ix1 k)
  congr 1
  funext a; apply Fin.ext
  match a with
  | ⟨0, _⟩ => show win5_1.index t (0 : Fin 1) * 16 + 1 * k.val = k.val; omega

/-! ## What a point writes back, and the cover -/

/-- WHAT POINT t WRITES BACK is block t of the stage's whole-array function: the payload is the stage of the two
    loaded blocks, the loaded rows are the array's rows of the output block, and a row of the stage depends on that
    row only. -/
theorem region5_flushed_eq (V : Entry) (c : Dev nD) (t : Fin cfg5.N) :
    (Gen.dat5 V c).flushed 2 t
      = ((cfg5.win 2).blk t).view.read (Elt Ideal) (Cert.Spec.biasLogSoftmax (V c main_v43) (V c main_arg9)) := by
  show (cfg5.win 2).cut (grid5.coords t) ((Gen.dat5 V c).after 2 t) = _
  rw [Gen.after5_2]
  unfold Gen.out5_2
  rw [View.canon_unit_zero region5_offsets_zero2]
  simp only [View.ld_unit_zero (S := S10000x16) region5_offsets_zero2, View.ld_unit_zero (S := S16) region5_offsets_zero1]
  rw [region5_payload_eq]
  obtain ⟨e0, -, -, e3, -⟩ := region5_index_facts t
  refine funext fun (j : S10000x16.Idx) => ?_
  show Cert.Spec.biasLogSoftmax (n := 10000) (p := 16) (Gen.iblk5 V c 0 t) (Gen.iblk5 V c 1 t) j
    = Cert.Spec.biasLogSoftmax (n := 100000) (p := 16) (V c main_v43) (V c main_arg9) (((cfg5.win 2).blk t).view.emb j)
  refine region5_biasLogSoftmax_row_congr _ _ _ _ j _ ?_ (fun k => ?_) (fun k => region5_iblk1_apply V c t k)
  · apply Fin.ext
    show win5_2.index t (1 : Fin 2) * 16 + 1 * (j 1).val = (j 1).val
    omega
  · refine region5_iblk0_apply V c t _ _ ?_ rfl
    show win5_2.index t (0 : Fin 2) * 10000 + 1 * (j 0).val = win5_0.index t (0 : Fin 2) * 10000 + (j 0).val
    omega

/-- An index of the array is in point t's block iff each coordinate is in the block's range on its axis. -/
theorem region5_mem_blk (t : Fin cfg5.N) (i : S100000x16.Idx) :
    i ∈ ((cfg5.win 2).blk t).view.set ↔ ∀ a : Fin 2, win5_2.index t a * S10000x16.size a ≤ (i a).val
      ∧ (i a).val < win5_2.index t a * S10000x16.size a + S10000x16.size a := by
  show i ∈ ((View.whole main_v44).slice (win5_2.rect t)).set ↔ _
  rw [View.set_slice_whole, Rect.mem_set_unit]
  exact Iff.rfl

/-- Every index of the array lies in a point's block: row r in the block of point r / 10000. -/
theorem region5_cover (i : S100000x16.Idx) :
    ∃ t : Fin cfg5.N, (cfg5.win 2).flush t = true ∧ i ∈ ((cfg5.win 2).blk t).view.set := by
  have hi0 : (i 0).val < 100000 := (i 0).isLt
  have hi1 : (i 1).val < 16 := (i 1).isLt
  have hN : grid5.N = 10 := Gen.N_5
  obtain ⟨t, ht⟩ : ∃ t : Fin cfg5.N, t.val = (i 0).val / 10000 :=
    ⟨⟨(i 0).val / 10000, by show (i 0).val / 10000 < grid5.N; omega⟩, rfl⟩
  obtain ⟨-, -, -, e3, e4⟩ := region5_index_facts t
  refine ⟨t, Gen.flush5_2 t, ?_⟩
  rw [region5_mem_blk]
  intro a
  match a with
  | ⟨0, _⟩ =>
    show win5_2.index t (0 : Fin 2) * 10000 ≤ (i 0).val ∧ (i 0).val < win5_2.index t (0 : Fin 2) * 10000 + 10000
    omega
  | ⟨1, _⟩ =>
    show win5_2.index t (1 : Fin 2) * 16 ≤ (i 1).val ∧ (i 1).val < win5_2.index t (1 : Fin 2) * 16 + 16
    omega

/-- The array region 5 leaves: every index of it lies in some grid point's block, and what a point writes back is
    that block of the stage's whole-array function. -/
theorem final5 (V : Entry) (c : Dev nD) :
    (Gen.dat5 V c).arrAt 2 cfg5.N = Cert.Spec.biasLogSoftmax (V c main_v43) (V c main_arg9) :=
  (Gen.dat5 V c).arrAt_eq_of_cover 2 (Cert.Spec.biasLogSoftmax (V c main_v43) (V c main_arg9))
    (fun t _ => region5_flushed_eq V c t) region5_cover

end Cert.KernelIdeal.Val

end
-- ==== Proof.KernelChain.lean ====
/-
  The kernel program's result buffer at the last boundary, walked back to the launch memory: each region's array is
  its stage of the arrays the region found (Region0.lean … Region5.lean), each host stretch between two regions is the
  sparse step of the arrays it found, and no region and no host operation writes an argument. Composed, the result is
  `out` of the ten arguments (KerTerms.lean).
-/
import proofs.«405061_j45071386805056_4_alg».proof.Proof.Region0
import proofs.«405061_j45071386805056_4_alg».proof.Proof.Region1
import proofs.«405061_j45071386805056_4_alg».proof.Proof.Region2
import proofs.«405061_j45071386805056_4_alg».proof.Proof.Region3
import proofs.«405061_j45071386805056_4_alg».proof.Proof.Region4
import proofs.«405061_j45071386805056_4_alg».proof.Proof.Region5
import Idealize.ShloMosaic.Lib.StableHlo.Run

set_option maxRecDepth 16384

noncomputable section

namespace Cert.KernelIdeal.Val

open Cert.KernelIdeal Cert.KernelIdeal.Gen Cert.KernelIdeal.Facts₀
open Idealize.ShloMosaic Idealize.ShloMosaic.TcCoe Idealize.SL.Sem Idealize.ShloMosaic.StableHlo

/-! ## The three host stretches, from any contents -/

section AnyInstance
variable {F : FTy → Type} [FloatOps F]

set_option maxHeartbeats 4000000 in
/-- The host stretch before region 1: its last operation's buffer holds the sparse step of width 16 of the support array, the
    source and destination indices and the edge values as the stretch found them. -/
theorem hostOps1_out (W : Valuation τ sig (Elt F)) :
    StableHlo.after hostOps1 W (Proc.devRef .tc main_v13) = sparse16 (W (Proc.devRef .tc main_v0)) (W (Proc.devRef .tc main_arg1)) (W (Proc.devRef .tc main_arg2)) (W (Proc.devRef .tc main_arg3)) := by
  after_results
  rfl

set_option maxHeartbeats 4000000 in
/-- The host stretch before region 3: its last operation's buffer holds the sparse step of width 64 of the support array, the
    source and destination indices and the edge values as the stretch found them. -/
theorem hostOps3_out (W : Valuation τ sig (Elt F)) :
    StableHlo.after hostOps3 W (Proc.devRef .tc main_v28) = sparse64 (W (Proc.devRef .tc main_v15)) (W (Proc.devRef .tc main_arg1)) (W (Proc.devRef .tc main_arg2)) (W (Proc.devRef .tc main_arg3)) := by
  after_results
  rfl

set_option maxHeartbeats 4000000 in
/-- The host stretch before region 5: its last operation's buffer holds the sparse step of width 16 of the support array, the
    source and destination indices and the edge values as the stretch found them. -/
theorem hostOps5_out (W : Valuation τ sig (Elt F)) :
    StableHlo.after hostOps5 W (Proc.devRef .tc main_v43) = sparse16 (W (Proc.devRef .tc main_v30)) (W (Proc.devRef .tc main_arg1)) (W (Proc.devRef .tc main_arg2)) (W (Proc.devRef .tc main_arg3)) := by
  after_results
  rfl

end AnyInstance

/-! ## The arguments at each boundary: nothing writes them -/

variable (m : (ℓ : Loc nD τ sig) → Buf (Elt Ideal) ℓ) (ρ : Dev nD → PrngReg) (c : Dev nD)

/-- A buffer none of a stretch's operations writes holds after the stretch what it held before. -/
local macro "host_keeps " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, Finset.mem_singleton]
             repeat' apply And.intro
             all_goals exact StableHlo.devRef_ne_of_ne (by decide)))

theorem W1_main_arg1 : W1 m ρ c (Proc.devRef .tc main_arg1) = m ((c : Thread nD τ).loc main_arg1) :=
  (W1_of_ne m ρ c main_arg1 (by decide)).trans rfl
theorem W2_main_arg1 : W2 m ρ c (Proc.devRef .tc main_arg1) = m ((c : Thread nD τ).loc main_arg1) :=
  (by host_keeps hostOps1 : W2 m ρ c (Proc.devRef .tc main_arg1) = W1 m ρ c (Proc.devRef .tc main_arg1)).trans (W1_main_arg1 m ρ c)
theorem W3_main_arg1 : W3 m ρ c (Proc.devRef .tc main_arg1) = m ((c : Thread nD τ).loc main_arg1) :=
  (W3_of_ne m ρ c main_arg1 (by decide)).trans (W2_main_arg1 m ρ c)
theorem W4_main_arg1 : W4 m ρ c (Proc.devRef .tc main_arg1) = m ((c : Thread nD τ).loc main_arg1) :=
  (W4_of_ne m ρ c main_arg1 (by decide)).trans (W3_main_arg1 m ρ c)
theorem W5_main_arg1 : W5 m ρ c (Proc.devRef .tc main_arg1) = m ((c : Thread nD τ).loc main_arg1) :=
  (by host_keeps hostOps3 : W5 m ρ c (Proc.devRef .tc main_arg1) = W4 m ρ c (Proc.devRef .tc main_arg1)).trans (W4_main_arg1 m ρ c)
theorem W6_main_arg1 : W6 m ρ c (Proc.devRef .tc main_arg1) = m ((c : Thread nD τ).loc main_arg1) :=
  (W6_of_ne m ρ c main_arg1 (by decide)).trans (W5_main_arg1 m ρ c)
theorem W7_main_arg1 : W7 m ρ c (Proc.devRef .tc main_arg1) = m ((c : Thread nD τ).loc main_arg1) :=
  (W7_of_ne m ρ c main_arg1 (by decide)).trans (W6_main_arg1 m ρ c)

theorem W1_main_arg2 : W1 m ρ c (Proc.devRef .tc main_arg2) = m ((c : Thread nD τ).loc main_arg2) :=
  (W1_of_ne m ρ c main_arg2 (by decide)).trans rfl
theorem W2_main_arg2 : W2 m ρ c (Proc.devRef .tc main_arg2) = m ((c : Thread nD τ).loc main_arg2) :=
  (by host_keeps hostOps1 : W2 m ρ c (Proc.devRef .tc main_arg2) = W1 m ρ c (Proc.devRef .tc main_arg2)).trans (W1_main_arg2 m ρ c)
theorem W3_main_arg2 : W3 m ρ c (Proc.devRef .tc main_arg2) = m ((c : Thread nD τ).loc main_arg2) :=
  (W3_of_ne m ρ c main_arg2 (by decide)).trans (W2_main_arg2 m ρ c)
theorem W4_main_arg2 : W4 m ρ c (Proc.devRef .tc main_arg2) = m ((c : Thread nD τ).loc main_arg2) :=
  (W4_of_ne m ρ c main_arg2 (by decide)).trans (W3_main_arg2 m ρ c)
theorem W5_main_arg2 : W5 m ρ c (Proc.devRef .tc main_arg2) = m ((c : Thread nD τ).loc main_arg2) :=
  (by host_keeps hostOps3 : W5 m ρ c (Proc.devRef .tc main_arg2) = W4 m ρ c (Proc.devRef .tc main_arg2)).trans (W4_main_arg2 m ρ c)
theorem W6_main_arg2 : W6 m ρ c (Proc.devRef .tc main_arg2) = m ((c : Thread nD τ).loc main_arg2) :=
  (W6_of_ne m ρ c main_arg2 (by decide)).trans (W5_main_arg2 m ρ c)
theorem W7_main_arg2 : W7 m ρ c (Proc.devRef .tc main_arg2) = m ((c : Thread nD τ).loc main_arg2) :=
  (W7_of_ne m ρ c main_arg2 (by decide)).trans (W6_main_arg2 m ρ c)

theorem W1_main_arg3 : W1 m ρ c (Proc.devRef .tc main_arg3) = m ((c : Thread nD τ).loc main_arg3) :=
  (W1_of_ne m ρ c main_arg3 (by decide)).trans rfl
theorem W2_main_arg3 : W2 m ρ c (Proc.devRef .tc main_arg3) = m ((c : Thread nD τ).loc main_arg3) :=
  (by host_keeps hostOps1 : W2 m ρ c (Proc.devRef .tc main_arg3) = W1 m ρ c (Proc.devRef .tc main_arg3)).trans (W1_main_arg3 m ρ c)
theorem W3_main_arg3 : W3 m ρ c (Proc.devRef .tc main_arg3) = m ((c : Thread nD τ).loc main_arg3) :=
  (W3_of_ne m ρ c main_arg3 (by decide)).trans (W2_main_arg3 m ρ c)
theorem W4_main_arg3 : W4 m ρ c (Proc.devRef .tc main_arg3) = m ((c : Thread nD τ).loc main_arg3) :=
  (W4_of_ne m ρ c main_arg3 (by decide)).trans (W3_main_arg3 m ρ c)
theorem W5_main_arg3 : W5 m ρ c (Proc.devRef .tc main_arg3) = m ((c : Thread nD τ).loc main_arg3) :=
  (by host_keeps hostOps3 : W5 m ρ c (Proc.devRef .tc main_arg3) = W4 m ρ c (Proc.devRef .tc main_arg3)).trans (W4_main_arg3 m ρ c)
theorem W6_main_arg3 : W6 m ρ c (Proc.devRef .tc main_arg3) = m ((c : Thread nD τ).loc main_arg3) :=
  (W6_of_ne m ρ c main_arg3 (by decide)).trans (W5_main_arg3 m ρ c)
theorem W7_main_arg3 : W7 m ρ c (Proc.devRef .tc main_arg3) = m ((c : Thread nD τ).loc main_arg3) :=
  (W7_of_ne m ρ c main_arg3 (by decide)).trans (W6_main_arg3 m ρ c)

theorem W1_main_arg5 : W1 m ρ c (Proc.devRef .tc main_arg5) = m ((c : Thread nD τ).loc main_arg5) :=
  (W1_of_ne m ρ c main_arg5 (by decide)).trans rfl
theorem W2_main_arg5 : W2 m ρ c (Proc.devRef .tc main_arg5) = m ((c : Thread nD τ).loc main_arg5) :=
  (by host_keeps hostOps1 : W2 m ρ c (Proc.devRef .tc main_arg5) = W1 m ρ c (Proc.devRef .tc main_arg5)).trans (W1_main_arg5 m ρ c)

theorem W1_main_arg6 : W1 m ρ c (Proc.devRef .tc main_arg6) = m ((c : Thread nD τ).loc main_arg6) :=
  (W1_of_ne m ρ c main_arg6 (by decide)).trans rfl
theorem W2_main_arg6 : W2 m ρ c (Proc.devRef .tc main_arg6) = m ((c : Thread nD τ).loc main_arg6) :=
  (by host_keeps hostOps1 : W2 m ρ c (Proc.devRef .tc main_arg6) = W1 m ρ c (Proc.devRef .tc main_arg6)).trans (W1_main_arg6 m ρ c)
theorem W3_main_arg6 : W3 m ρ c (Proc.devRef .tc main_arg6) = m ((c : Thread nD τ).loc main_arg6) :=
  (W3_of_ne m ρ c main_arg6 (by decide)).trans (W2_main_arg6 m ρ c)

theorem W1_main_arg7 : W1 m ρ c (Proc.devRef .tc main_arg7) = m ((c : Thread nD τ).loc main_arg7) :=
  (W1_of_ne m ρ c main_arg7 (by decide)).trans rfl
theorem W2_main_arg7 : W2 m ρ c (Proc.devRef .tc main_arg7) = m ((c : Thread nD τ).loc main_arg7) :=
  (by host_keeps hostOps1 : W2 m ρ c (Proc.devRef .tc main_arg7) = W1 m ρ c (Proc.devRef .tc main_arg7)).trans (W1_main_arg7 m ρ c)
theorem W3_main_arg7 : W3 m ρ c (Proc.devRef .tc main_arg7) = m ((c : Thread nD τ).loc main_arg7) :=
  (W3_of_ne m ρ c main_arg7 (by decide)).trans (W2_main_arg7 m ρ c)
theorem W4_main_arg7 : W4 m ρ c (Proc.devRef .tc main_arg7) = m ((c : Thread nD τ).loc main_arg7) :=
  (W4_of_ne m ρ c main_arg7 (by decide)).trans (W3_main_arg7 m ρ c)
theorem W5_main_arg7 : W5 m ρ c (Proc.devRef .tc main_arg7) = m ((c : Thread nD τ).loc main_arg7) :=
  (by host_keeps hostOps3 : W5 m ρ c (Proc.devRef .tc main_arg7) = W4 m ρ c (Proc.devRef .tc main_arg7)).trans (W4_main_arg7 m ρ c)

theorem W1_main_arg8 : W1 m ρ c (Proc.devRef .tc main_arg8) = m ((c : Thread nD τ).loc main_arg8) :=
  (W1_of_ne m ρ c main_arg8 (by decide)).trans rfl
theorem W2_main_arg8 : W2 m ρ c (Proc.devRef .tc main_arg8) = m ((c : Thread nD τ).loc main_arg8) :=
  (by host_keeps hostOps1 : W2 m ρ c (Proc.devRef .tc main_arg8) = W1 m ρ c (Proc.devRef .tc main_arg8)).trans (W1_main_arg8 m ρ c)
theorem W3_main_arg8 : W3 m ρ c (Proc.devRef .tc main_arg8) = m ((c : Thread nD τ).loc main_arg8) :=
  (W3_of_ne m ρ c main_arg8 (by decide)).trans (W2_main_arg8 m ρ c)
theorem W4_main_arg8 : W4 m ρ c (Proc.devRef .tc main_arg8) = m ((c : Thread nD τ).loc main_arg8) :=
  (W4_of_ne m ρ c main_arg8 (by decide)).trans (W3_main_arg8 m ρ c)
theorem W5_main_arg8 : W5 m ρ c (Proc.devRef .tc main_arg8) = m ((c : Thread nD τ).loc main_arg8) :=
  (by host_keeps hostOps3 : W5 m ρ c (Proc.devRef .tc main_arg8) = W4 m ρ c (Proc.devRef .tc main_arg8)).trans (W4_main_arg8 m ρ c)
theorem W6_main_arg8 : W6 m ρ c (Proc.devRef .tc main_arg8) = m ((c : Thread nD τ).loc main_arg8) :=
  (W6_of_ne m ρ c main_arg8 (by decide)).trans (W5_main_arg8 m ρ c)

theorem W1_main_arg9 : W1 m ρ c (Proc.devRef .tc main_arg9) = m ((c : Thread nD τ).loc main_arg9) :=
  (W1_of_ne m ρ c main_arg9 (by decide)).trans rfl
theorem W2_main_arg9 : W2 m ρ c (Proc.devRef .tc main_arg9) = m ((c : Thread nD τ).loc main_arg9) :=
  (by host_keeps hostOps1 : W2 m ρ c (Proc.devRef .tc main_arg9) = W1 m ρ c (Proc.devRef .tc main_arg9)).trans (W1_main_arg9 m ρ c)
theorem W3_main_arg9 : W3 m ρ c (Proc.devRef .tc main_arg9) = m ((c : Thread nD τ).loc main_arg9) :=
  (W3_of_ne m ρ c main_arg9 (by decide)).trans (W2_main_arg9 m ρ c)
theorem W4_main_arg9 : W4 m ρ c (Proc.devRef .tc main_arg9) = m ((c : Thread nD τ).loc main_arg9) :=
  (W4_of_ne m ρ c main_arg9 (by decide)).trans (W3_main_arg9 m ρ c)
theorem W5_main_arg9 : W5 m ρ c (Proc.devRef .tc main_arg9) = m ((c : Thread nD τ).loc main_arg9) :=
  (by host_keeps hostOps3 : W5 m ρ c (Proc.devRef .tc main_arg9) = W4 m ρ c (Proc.devRef .tc main_arg9)).trans (W4_main_arg9 m ρ c)
theorem W6_main_arg9 : W6 m ρ c (Proc.devRef .tc main_arg9) = m ((c : Thread nD τ).loc main_arg9) :=
  (W6_of_ne m ρ c main_arg9 (by decide)).trans (W5_main_arg9 m ρ c)
theorem W7_main_arg9 : W7 m ρ c (Proc.devRef .tc main_arg9) = m ((c : Thread nD τ).loc main_arg9) :=
  (W7_of_ne m ρ c main_arg9 (by decide)).trans (W6_main_arg9 m ρ c)
theorem W8_main_arg9 : W8 m ρ c (Proc.devRef .tc main_arg9) = m ((c : Thread nD τ).loc main_arg9) :=
  (by host_keeps hostOps5 : W8 m ρ c (Proc.devRef .tc main_arg9) = W7 m ρ c (Proc.devRef .tc main_arg9)).trans (W7_main_arg9 m ρ c)

/-! ## The arrays the regions and the stretches leave, in @main's order -/

/-- Region 0 leaves the first product. -/
theorem W1_v0 : W1 m ρ c (Proc.devRef .tc main_v0) = Cert.Spec.mm (m ((c : Thread nD τ).loc main_arg0)) (m ((c : Thread nD τ).loc main_arg4)) :=
  (W1_arr m ρ c 2).trans (final0 (V0 m ρ) c)

/-- The first sparse step. -/
theorem W2_v13 : W2 m ρ c (Proc.devRef .tc main_v13)
    = sparse16 (F := Ideal) (Cert.Spec.mm (m ((c : Thread nD τ).loc main_arg0)) (m ((c : Thread nD τ).loc main_arg4))) (m ((c : Thread nD τ).loc main_arg1)) (m ((c : Thread nD τ).loc main_arg2)) (m ((c : Thread nD τ).loc main_arg3)) := by
  show StableHlo.after hostOps1 (W1 m ρ c) (Proc.devRef .tc main_v13) = _
  rw [hostOps1_out, W1_v0, W1_main_arg1, W1_main_arg2, W1_main_arg3]

/-- Region 1 leaves the first hidden layer. -/
theorem W3_v14 : W3 m ρ c (Proc.devRef .tc main_v14)
    = Cert.Spec.biasLeaky (sparse16 (F := Ideal) (Cert.Spec.mm (m ((c : Thread nD τ).loc main_arg0)) (m ((c : Thread nD τ).loc main_arg4))) (m ((c : Thread nD τ).loc main_arg1)) (m ((c : Thread nD τ).loc main_arg2)) (m ((c : Thread nD τ).loc main_arg3))) (m ((c : Thread nD τ).loc main_arg5)) := by
  refine ((W3_arr m ρ c 2).trans (final1 (V2 m ρ) c)).trans ?_
  show Cert.Spec.biasLeaky (W2 m ρ c (Proc.devRef .tc main_v13)) (W2 m ρ c (Proc.devRef .tc main_arg5)) = _
  rw [W2_v13, W2_main_arg5]

/-- Region 2 leaves the second product. -/
theorem W4_v15 : W4 m ρ c (Proc.devRef .tc main_v15)
    = Cert.Spec.mm (Cert.Spec.biasLeaky (sparse16 (F := Ideal) (Cert.Spec.mm (m ((c : Thread nD τ).loc main_arg0)) (m ((c : Thread nD τ).loc main_arg4))) (m ((c : Thread nD τ).loc main_arg1)) (m ((c : Thread nD τ).loc main_arg2)) (m ((c : Thread nD τ).loc main_arg3))) (m ((c : Thread nD τ).loc main_arg5))) (m ((c : Thread nD τ).loc main_arg6)) := by
  refine ((W4_arr m ρ c 2).trans (final2 (V3 m ρ) c)).trans ?_
  show Cert.Spec.mm (W3 m ρ c (Proc.devRef .tc main_v14)) (W3 m ρ c (Proc.devRef .tc main_arg6)) = _
  rw [W3_v14, W3_main_arg6]

/-- What the second hidden layer's aggregated messages are a function of: named, so that the later statements stay short. -/
abbrev h1 : FVec Ideal S100000x16 .f32 :=
  Cert.Spec.biasLeaky (sparse16 (F := Ideal) (Cert.Spec.mm (m ((c : Thread nD τ).loc main_arg0)) (m ((c : Thread nD τ).loc main_arg4))) (m ((c : Thread nD τ).loc main_arg1)) (m ((c : Thread nD τ).loc main_arg2)) (m ((c : Thread nD τ).loc main_arg3))) (m ((c : Thread nD τ).loc main_arg5))

/-- The second sparse step. -/
theorem W5_v28 : W5 m ρ c (Proc.devRef .tc main_v28)
    = sparse64 (F := Ideal) (Cert.Spec.mm (h1 m c) (m ((c : Thread nD τ).loc main_arg6))) (m ((c : Thread nD τ).loc main_arg1)) (m ((c : Thread nD τ).loc main_arg2)) (m ((c : Thread nD τ).loc main_arg3)) := by
  show StableHlo.after hostOps3 (W4 m ρ c) (Proc.devRef .tc main_v28) = _
  rw [hostOps3_out, W4_v15, W4_main_arg1, W4_main_arg2, W4_main_arg3]

/-- Region 3 leaves the second hidden layer. -/
theorem W6_v29 : W6 m ρ c (Proc.devRef .tc main_v29)
    = Cert.Spec.biasLeaky (sparse64 (F := Ideal) (Cert.Spec.mm (h1 m c) (m ((c : Thread nD τ).loc main_arg6))) (m ((c : Thread nD τ).loc main_arg1)) (m ((c : Thread nD τ).loc main_arg2)) (m ((c : Thread nD τ).loc main_arg3))) (m ((c : Thread nD τ).loc main_arg7)) := by
  refine ((W6_arr m ρ c 2).trans (final3 (V5 m ρ) c)).trans ?_
  show Cert.Spec.biasLeaky (W5 m ρ c (Proc.devRef .tc main_v28)) (W5 m ρ c (Proc.devRef .tc main_arg7)) = _
  rw [W5_v28, W5_main_arg7]

/-- The second hidden layer, named. -/
abbrev h2 : FVec Ideal S100000x64 .f32 :=
  Cert.Spec.biasLeaky (sparse64 (F := Ideal) (Cert.Spec.mm (h1 m c) (m ((c : Thread nD τ).loc main_arg6))) (m ((c : Thread nD τ).loc main_arg1)) (m ((c : Thread nD τ).loc main_arg2)) (m ((c : Thread nD τ).loc main_arg3))) (m ((c : Thread nD τ).loc main_arg7))

/-- Region 4 leaves the third product. -/
theorem W7_v30 : W7 m ρ c (Proc.devRef .tc main_v30) = Cert.Spec.mm (h2 m c) (m ((c : Thread nD τ).loc main_arg8)) := by
  refine ((W7_arr m ρ c 2).trans (final4 (V6 m ρ) c)).trans ?_
  show Cert.Spec.mm (W6 m ρ c (Proc.devRef .tc main_v29)) (W6 m ρ c (Proc.devRef .tc main_arg8)) = _
  rw [W6_v29, W6_main_arg8]

/-- The third sparse step. -/
theorem W8_v43 : W8 m ρ c (Proc.devRef .tc main_v43)
    = sparse16 (F := Ideal) (Cert.Spec.mm (h2 m c) (m ((c : Thread nD τ).loc main_arg8))) (m ((c : Thread nD τ).loc main_arg1)) (m ((c : Thread nD τ).loc main_arg2)) (m ((c : Thread nD τ).loc main_arg3)) := by
  show StableHlo.after hostOps5 (W7 m ρ c) (Proc.devRef .tc main_v43) = _
  rw [hostOps5_out, W7_v30, W7_main_arg1, W7_main_arg2, W7_main_arg3]

/-- The result buffer at the last boundary is `out` of the launch memory's ten arguments. -/
theorem W9_out (m : (ℓ : Loc nD τ sig) → Buf (Elt Ideal) ℓ) (ρ : Dev nD → PrngReg) (c : Dev nD) :
    Gen.W9 m ρ c (Proc.devRef .tc main_v44) = out
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9)) := by
  refine ((W9_arr m ρ c 2).trans (final5 (V8 m ρ) c)).trans ?_
  show Cert.Spec.biasLogSoftmax (W8 m ρ c (Proc.devRef .tc main_v43)) (W8 m ρ c (Proc.devRef .tc main_arg9)) = _
  rw [W8_v43, W8_main_arg9]
  rfl

end Cert.KernelIdeal.Val

end
-- ==== Proof.RefTerms.lean ====
/-
  The reference program's stages by name, at any float instance: the dense product, the sparse step (the same host
  operations as in the kernel program), the bias laid along every row, the leaky rectifier as jax outlines it
  (compare with a zero splat, multiply by the slope splat, select), and the row-wise log-softmax as jax outlines it
  (row maximum from −∞, taken once more against −∞; shift; exponential; row sum from zero; logarithm; shift).
  `out` is @main's result as their composition.
-/
import proofs.«405061_j45071386805056_4_alg».proof.Proof.Gen.ReferenceIdeal

noncomputable section

namespace Cert.ReferenceIdeal.Val

open Cert.ReferenceIdeal Cert.ReferenceIdeal.Facts₀ Idealize.ShloMosaic

variable {F : FTy → Type} [FloatOps F]

/-- The sparse step of a layer of width 16, as the program's own host operations: a source index below zero is moved up by the node count; the support rows are gathered at the source indices, scaled by the edge values, and scatter-added at the destination indices onto zeros. -/
def sparse16 (support : FVec F S100000x16 .f32) (src dst : IVec S3200000 32) (ev : FVec F S3200000 .f32) : FVec F S100000x16 .f32 :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 dst)
    (mulf
      (broadcastInDim S3200000x16 ![0, 1] bcast_S3200000x1_S3200000x16_0_1
        (broadcastInDim S3200000x1 ![0] bcast_S3200000_S3200000x1_0 ev))
      (Host.gather gather_S100000x16_S3200000x1_S3200000x16_1_0_n_n_0_1_116 support
        (broadcastInDim S3200000x1 ![0] bcast_S3200000_S3200000x1_0
          (select
            (cmpi .slt src (broadcastInDim S3200000 ![] bcast_S_S3200000 (constantI S_ 32 0#32)))
            (addi src (broadcastInDim S3200000 ![] bcast_S_S3200000 (constantI S_ 32 100000#32)))
            src))))

/-- The sparse step of a layer of width 64, as the program's own host operations: a source index below zero is moved up by the node count; the support rows are gathered at the source indices, scaled by the edge values, and scatter-added at the destination indices onto zeros. -/
def sparse64 (support : FVec F S100000x64 .f32) (src dst : IVec S3200000 32) (ev : FVec F S3200000 .f32) : FVec F S100000x64 .f32 :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 dst)
    (mulf
      (broadcastInDim S3200000x64 ![0, 1] bcast_S3200000x1_S3200000x64_0_1
        (broadcastInDim S3200000x1 ![0] bcast_S3200000_S3200000x1_0 ev))
      (Host.gather gather_S100000x64_S3200000x1_S3200000x64_1_0_n_n_0_1_164 support
        (broadcastInDim S3200000x1 ![0] bcast_S3200000_S3200000x1_0
          (select
            (cmpi .slt src (broadcastInDim S3200000 ![] bcast_S_S3200000 (constantI S_ 32 0#32)))
            (addi src (broadcastInDim S3200000 ![] bcast_S_S3200000 (constantI S_ 32 100000#32)))
            src))))

/-- Layer 1's product: node features [100000, 512] times weights [512, 16]. -/
def dense1 (x : FVec F S100000x512 .f32) (W : FVec F S512x16 .f32) : FVec F S100000x16 .f32 :=
  Host.dotGeneral dot_S100000x512_S512x16_S100000x16_1_0_0_1_n_n none x W
/-- Layer 2's product: [100000, 16] times [16, 64]. -/
def dense2 (h : FVec F S100000x16 .f32) (W : FVec F S16x64 .f32) : FVec F S100000x64 .f32 :=
  Host.dotGeneral dot_S100000x16_S16x64_S100000x64_1_0_0_1_n_n none h W
/-- Layer 3's product: [100000, 64] times [64, 16]. -/
def dense3 (h : FVec F S100000x64 .f32) (W : FVec F S64x16 .f32) : FVec F S100000x16 .f32 :=
  Host.dotGeneral dot_S100000x64_S64x16_S100000x16_1_0_0_1_n_n none h W

/-- A bias of 16 entries added along every one of the 100000 rows. -/
def bias16 (X : FVec F S100000x16 .f32) (b : FVec F S16 .f32) : FVec F S100000x16 .f32 :=
  addf X (broadcastInDim S100000x16 ![0, 1] bcast_S1x16_S100000x16_0_1 (broadcastInDim S1x16 ![1] bcast_S16_S1x16_1 b))
/-- A bias of 64 entries added along every one of the 100000 rows. -/
def bias64 (X : FVec F S100000x64 .f32) (b : FVec F S64 .f32) : FVec F S100000x64 .f32 :=
  addf X (broadcastInDim S100000x64 ![0, 1] bcast_S1x64_S100000x64_0_1 (broadcastInDim S1x64 ![1] bcast_S64_S1x64_1 b))

/-- The leaky rectifier on [100000, 16], as outlined: where A ≥ 0 keep A, elsewhere slope · A. -/
def leaky16 (A : FVec F S100000x16 .f32) : FVec F S100000x16 .f32 :=
  select (cmpf .oge A (broadcastInDim S100000x16 ![] bcast_S_S100000x16 (constant S_ .f32 0x00000000#32))) A
    (mulf (broadcastInDim S100000x16 ![] bcast_S_S100000x16 (id (constant S_ .f32 0x3C23D70A#32))) A)
/-- The leaky rectifier on [100000, 64], as outlined. -/
def leaky64 (A : FVec F S100000x64 .f32) : FVec F S100000x64 .f32 :=
  select (cmpf .oge A (broadcastInDim S100000x64 ![] bcast_S_S100000x64 (constant S_ .f32 0x00000000#32))) A
    (mulf (broadcastInDim S100000x64 ![] bcast_S_S100000x64 (id (constant S_ .f32 0x3C23D70A#32))) A)

/-- Each row's maximum, as outlined: the reduction from −∞ along axis 1, then once more the maximum with −∞. -/
def rowMax (Y : FVec F S100000x16 .f32) : FVec F S100000 .f32 :=
  maximumf (broadcastInDim S100000 ![] bcast_S_S100000 (constant S_ .f32 0xFF800000#32))
    (Host.reduce FloatOps.maximumf Y (constant S_ .f32 0xFF800000#32) reducesTo_S100000x16_S100000_d1 h_S_)
/-- Every entry minus its row's maximum. -/
def shifted (Y : FVec F S100000x16 .f32) : FVec F S100000x16 .f32 :=
  subf Y (broadcastInDim S100000x16 ![0, 1] bcast_S100000x1_S100000x16_0_1
    (broadcastInDim S100000x1 ![0] bcast_S100000_S100000x1_0 (rowMax Y)))
/-- The row-wise log-softmax, as outlined: the shifted entries minus the logarithm of the row sum of their exponentials. -/
def logSoftmax (Y : FVec F S100000x16 .f32) : FVec F S100000x16 .f32 :=
  subf (shifted Y) (broadcastInDim S100000x16 ![0, 1] bcast_S100000x1_S100000x16_0_1
    (Host.log (broadcastInDim S100000x1 ![0] bcast_S100000_S100000x1_0
      (Host.reduceAdd (Host.exp (shifted Y)) (constant S_ .f32 0x00000000#32) reducesTo_S100000x16_S100000_d1 h_S_))))

/-- What @main computes from its ten arguments. -/
def out (x : FVec F S100000x512 .f32) (src dst : IVec S3200000 32) (ev : FVec F S3200000 .f32)
    (W1 : FVec F S512x16 .f32) (b1 : FVec F S16 .f32) (W2 : FVec F S16x64 .f32) (b2 : FVec F S64 .f32)
    (W3 : FVec F S64x16 .f32) (b3 : FVec F S16 .f32) : FVec F S100000x16 .f32 :=
  logSoftmax (bias16
    (sparse16 (dense3
      (leaky64 (bias64
        (sparse64 (dense2
          (leaky16 (bias16 (sparse16 (dense1 x W1) src dst ev) b1))
          W2) src dst ev)
        b2))
      W3) src dst ev)
    b3)

end Cert.ReferenceIdeal.Val

end
-- ==== Proof.RefRun.lean ====
/-
  The reference program's run: @main is a straight line of host operations (jax's outlined leaky_relu, _where and
  log_softmax opened at their calls), so every weakly fair execution ends with each buffer at the operations' fold
  over the launch memory; read at the result buffer the fold is `out` of the ten arguments (RefTerms.lean), and at
  an argument's buffer it is the argument.
-/
import proofs.«405061_j45071386805056_4_alg».proof.Proof.RefTerms
import Idealize.ShloMosaic.Lib.StableHlo.Run

noncomputable section

namespace Cert.ReferenceIdeal.Val

open Cert.ReferenceIdeal Cert.ReferenceIdeal.Facts₀
open Idealize.ShloMosaic Idealize.ShloMosaic.TcCoe Idealize.SL.Sem Idealize.ShloMosaic.StableHlo

variable {F : FTy → Type} [FloatOps F]

/-- @main's ninety-one operations in order, the three calls opened where they stand. A layer is: the dense product;
    the sparse step (the edge values as a column; the source indices with the negative ones moved up by the node
    count, as a column; the gather of the product's rows; the column laid along the features; the product; the zero
    splat; the destination indices as a column; the scatter-add), the bias as a row laid along the nodes, the sum.
    After layers one and two the slope constant and the leaky rectifier's seven (the zero, its splat, the comparison,
    the slope converted to its own type, its splat, the product, then `_where`'s select into the call's result
    buffer). After layer three the log-softmax's fifteen: −∞, the row maximum from it, −∞ again, its splat, the
    maximum of the two, that as a column laid along the features, the shift, the exponential, zero, the row sum,
    that as a column, its logarithm laid along the features, the second shift into the result buffer. -/
abbrev refOps : List (HloOp τ sig (Elt F)) :=
  [ -- layer one: x · W1, the sparse step, the bias
    binary main_arg0 main_arg4 main_v0 (fun l r => Host.dotGeneral dot_S100000x512_S512x16_S100000x16_1_0_0_1_n_n none l r),
    unary main_arg3 main_v1 (broadcastInDim S3200000x1 ![0] bcast_S3200000_S3200000x1_0),
    nullary main_c (constantI S_ 32 0#32),
    unary main_c main_v2 (broadcastInDim S3200000 ![] bcast_S_S3200000),
    binary main_arg1 main_v2 main_v3 (cmpi .slt),
    nullary main_c_0 (constantI S_ 32 100000#32),
    unary main_c_0 main_v4 (broadcastInDim S3200000 ![] bcast_S_S3200000),
    binary main_arg1 main_v4 main_v5 addi,
    ternary main_v3 main_v5 main_arg1 main_v6 select,
    unary main_v6 main_v7 (broadcastInDim S3200000x1 ![0] bcast_S3200000_S3200000x1_0),
    binary main_v0 main_v7 main_v8 (fun x i => Host.gather gather_S100000x16_S3200000x1_S3200000x16_1_0_n_n_0_1_116 x i),
    unary main_v1 main_v9 (broadcastInDim S3200000x16 ![0, 1] bcast_S3200000x1_S3200000x16_0_1),
    binary main_v9 main_v8 main_v10 mulf,
    nullary main_cst (constant S_ .f32 0x00000000#32),
    unary main_cst main_v11 (broadcastInDim S100000x16 ![] bcast_S_S100000x16),
    unary main_arg2 main_v12 (broadcastInDim S3200000x1 ![0] bcast_S3200000_S3200000x1_0),
    ternary main_v11 main_v12 main_v10 main_v13 (fun x i u => Host.scatterAdd scatter_S100000x16_S3200000x1_S3200000x16_1_0_0_1 x i u),
    unary main_arg5 main_v14 (broadcastInDim S1x16 ![1] bcast_S16_S1x16_1),
    unary main_v14 main_v15 (broadcastInDim S100000x16 ![0, 1] bcast_S1x16_S100000x16_0_1),
    binary main_v13 main_v15 main_v16 addf,
    -- the slope, and the leaky rectifier on [100000, 16]
    nullary main_cst_1 (constant S_ .f32 0x3C23D70A#32),
    TRef.nullary main_call0.cst (constant S_ .f32 0x00000000#32),
    TRef.unary main_call0.cst main_call0.v0 (broadcastInDim S100000x16 ![] bcast_S_S100000x16),
    TRef.binary (.of main_v16 : TRef sig ⟨S100000x16, .f32⟩) main_call0.v0 main_call0.v1 (cmpf .oge),
    TRef.unary (.of main_cst_1 : TRef sig ⟨S_, .f32⟩) main_call0.v2 id,
    TRef.unary main_call0.v2 main_call0.v3 (broadcastInDim S100000x16 ![] bcast_S_S100000x16),
    TRef.binary main_call0.v3 (.of main_v16 : TRef sig ⟨S100000x16, .f32⟩) main_call0.v4 mulf,
    TRef.ternary main_call0.v1 (.of main_v16 : TRef sig ⟨S100000x16, .f32⟩) main_call0.v4 main_call0.call0.v0 select,
    -- layer two: h1 · W2, the sparse step, the bias
    binary main_v17 main_arg6 main_v18 (fun l r => Host.dotGeneral dot_S100000x16_S16x64_S100000x64_1_0_0_1_n_n none l r),
    unary main_arg3 main_v19 (broadcastInDim S3200000x1 ![0] bcast_S3200000_S3200000x1_0),
    nullary main_c_2 (constantI S_ 32 0#32),
    unary main_c_2 main_v20 (broadcastInDim S3200000 ![] bcast_S_S3200000),
    binary main_arg1 main_v20 main_v21 (cmpi .slt),
    nullary main_c_3 (constantI S_ 32 100000#32),
    unary main_c_3 main_v22 (broadcastInDim S3200000 ![] bcast_S_S3200000),
    binary main_arg1 main_v22 main_v23 addi,
    ternary main_v21 main_v23 main_arg1 main_v24 select,
    unary main_v24 main_v25 (broadcastInDim S3200000x1 ![0] bcast_S3200000_S3200000x1_0),
    binary main_v18 main_v25 main_v26 (fun x i => Host.gather gather_S100000x64_S3200000x1_S3200000x64_1_0_n_n_0_1_164 x i),
    unary main_v19 main_v27 (broadcastInDim S3200000x64 ![0, 1] bcast_S3200000x1_S3200000x64_0_1),
    binary main_v27 main_v26 main_v28 mulf,
    nullary main_cst_4 (constant S_ .f32 0x00000000#32),
    unary main_cst_4 main_v29 (broadcastInDim S100000x64 ![] bcast_S_S100000x64),
    unary main_arg2 main_v30 (broadcastInDim S3200000x1 ![0] bcast_S3200000_S3200000x1_0),
    ternary main_v29 main_v30 main_v28 main_v31 (fun x i u => Host.scatterAdd scatter_S100000x64_S3200000x1_S3200000x64_1_0_0_1 x i u),
    unary main_arg7 main_v32 (broadcastInDim S1x64 ![1] bcast_S64_S1x64_1),
    unary main_v32 main_v33 (broadcastInDim S100000x64 ![0, 1] bcast_S1x64_S100000x64_0_1),
    binary main_v31 main_v33 main_v34 addf,
    -- the slope, and the leaky rectifier on [100000, 64]
    nullary main_cst_5 (constant S_ .f32 0x3C23D70A#32),
    TRef.nullary main_call1.cst (constant S_ .f32 0x00000000#32),
    TRef.unary main_call1.cst main_call1.v0 (broadcastInDim S100000x64 ![] bcast_S_S100000x64),
    TRef.binary (.of main_v34 : TRef sig ⟨S100000x64, .f32⟩) main_call1.v0 main_call1.v1 (cmpf .oge),
    TRef.unary (.of main_cst_5 : TRef sig ⟨S_, .f32⟩) main_call1.v2 id,
    TRef.unary main_call1.v2 main_call1.v3 (broadcastInDim S100000x64 ![] bcast_S_S100000x64),
    TRef.binary main_call1.v3 (.of main_v34 : TRef sig ⟨S100000x64, .f32⟩) main_call1.v4 mulf,
    TRef.ternary main_call1.v1 (.of main_v34 : TRef sig ⟨S100000x64, .f32⟩) main_call1.v4 main_call1.call0.v0 select,
    -- layer three: h2 · W3, the sparse step, the bias
    binary main_v35 main_arg8 main_v36 (fun l r => Host.dotGeneral dot_S100000x64_S64x16_S100000x16_1_0_0_1_n_n none l r),
    unary main_arg3 main_v37 (broadcastInDim S3200000x1 ![0] bcast_S3200000_S3200000x1_0),
    nullary main_c_6 (constantI S_ 32 0#32),
    unary main_c_6 main_v38 (broadcastInDim S3200000 ![] bcast_S_S3200000),
    binary main_arg1 main_v38 main_v39 (cmpi .slt),
    nullary main_c_7 (constantI S_ 32 100000#32),
    unary main_c_7 main_v40 (broadcastInDim S3200000 ![] bcast_S_S3200000),
    binary main_arg1 main_v40 main_v41 addi,
    ternary main_v39 main_v41 main_arg1 main_v42 select,
    unary main_v42 main_v43 (broadcastInDim S3200000x1 ![0] bcast_S3200000_S3200000x1_0),
    binary main_v36 main_v43 main_v44 (fun x i => Host.gather gather_S100000x16_S3200000x1_S3200000x16_1_0_n_n_0_1_116 x i),
    unary main_v37 main_v45 (broadcastInDim S3200000x16 ![0, 1] bcast_S3200000x1_S3200000x16_0_1),
    binary main_v45 main_v44 main_v46 mulf,
    nullary main_cst_8 (constant S_ .f32 0x00000000#32),
    unary main_cst_8 main_v47 (broadcastInDim S100000x16 ![] bcast_S_S100000x16),
    unary main_arg2 main_v48 (broadcastInDim S3200000x1 ![0] bcast_S3200000_S3200000x1_0),
    ternary main_v47 main_v48 main_v46 main_v49 (fun x i u => Host.scatterAdd scatter_S100000x16_S3200000x1_S3200000x16_1_0_0_1 x i u),
    unary main_arg9 main_v50 (broadcastInDim S1x16 ![1] bcast_S16_S1x16_1),
    unary main_v50 main_v51 (broadcastInDim S100000x16 ![0, 1] bcast_S1x16_S100000x16_0_1),
    binary main_v49 main_v51 main_v52 addf,
    -- the row-wise log-softmax
    TRef.nullary main_call2.cst (constant S_ .f32 0xFF800000#32),
    TRef.binary (.of main_v52 : TRef sig ⟨S100000x16, .f32⟩) main_call2.cst main_call2.v0 (fun x v => Host.reduce FloatOps.maximumf x v reducesTo_S100000x16_S100000_d1 h_S_),
    TRef.nullary main_call2.cst_0 (constant S_ .f32 0xFF800000#32),
    TRef.unary main_call2.cst_0 main_call2.v1 (broadcastInDim S100000 ![] bcast_S_S100000),
    TRef.binary main_call2.v1 main_call2.v0 main_call2.v2 maximumf,
    TRef.unary main_call2.v2 main_call2.v3 (broadcastInDim S100000x1 ![0] bcast_S100000_S100000x1_0),
    TRef.unary main_call2.v3 main_call2.v4 (broadcastInDim S100000x16 ![0, 1] bcast_S100000x1_S100000x16_0_1),
    TRef.binary (.of main_v52 : TRef sig ⟨S100000x16, .f32⟩) main_call2.v4 main_call2.v5 subf,
    TRef.unary main_call2.v5 main_call2.v6 Host.exp,
    TRef.nullary main_call2.cst_1 (constant S_ .f32 0x00000000#32),
    TRef.binary main_call2.v6 main_call2.cst_1 main_call2.v7 (fun x v => Host.reduceAdd x v reducesTo_S100000x16_S100000_d1 h_S_),
    TRef.unary main_call2.v7 main_call2.v8 (broadcastInDim S100000x1 ![0] bcast_S100000_S100000x1_0),
    TRef.unary main_call2.v8 main_call2.v9 Host.log,
    TRef.unary main_call2.v9 main_call2.v10 (broadcastInDim S100000x16 ![0, 1] bcast_S100000x1_S100000x16_0_1),
    TRef.binary main_call2.v5 main_call2.v10 main_call2.v11 subf ]

-- ninety-one binds re-associated: the rewriting under the chain recurses once per statement
set_option maxRecDepth 8192 in
set_option maxHeartbeats 4000000 in
/-- @main is that straight line: the two windows and the outlined functions unfolded at their calls, the records at
    their fields, both sides are one chain of steps once sequencing is re-associated. -/
theorem main_eq_seq_refOps (c : Dev nD) : main (F := F) c = seq refOps := by
  simp only [main, main_part0, main_part1, fn_leaky_relu.body, fn_where.body, fn_leaky_relu_0.body, fn_where_1.body,
    fn_log_softmax.body, seq, bind_assoc, pure_bind]
  rfl

/-- The signature scopes no TensorCore buffer. -/
theorem no_scoped_ref : (Finset.univ.filter fun b : Ref sig .tc => b.isScoped) = ∅ := by decide
/-- The signature scopes no semaphore. -/
theorem no_scoped_sem : (Finset.univ.filter fun sm : SemLoc sig => sm.isScoped .tc) = ∅ := by decide

/-- Every operation touches TensorCore buffers only. -/
theorem refOps_touch_tc : (refOps : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., nullary_bufs_sub .., unary_bufs_sub .., binary_bufs_sub .., unary_bufs_sub .., unary_bufs_sub .., binary_bufs_sub ..,
    ternary_bufs_sub ..,
    binary_bufs_sub .., unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., nullary_bufs_sub .., unary_bufs_sub .., binary_bufs_sub .., unary_bufs_sub .., unary_bufs_sub .., binary_bufs_sub ..,
    ternary_bufs_sub ..,
    binary_bufs_sub .., unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub .., unary_bufs_sub ..,
    binary_bufs_sub ..⟩

/-- From any memory with zero counters every weakly fair execution of @main ends with each TensorCore buffer at the
    operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after refOps (launchContents m c) (b : DevRef τ sig) :=
  run_seq no_scoped_ref no_scoped_sem defs main (fun _ => refOps) main_eq_seq_refOps (fun _ => refOps_touch_tc) m ρ

/-- A typed reference's two transports cancel: contents at the value's type moved to the buffer's type and back. -/
theorem ofBuf_toBuf_cancel {T : BufTy} (x : TRef sig T) (v : T.Contents (Elt F)) :
    x.ofBuf (x.toBuf (Val := Elt F) v) = v := by
  obtain ⟨r, rfl, _, _⟩ := x
  rfl

section Fold

-- the gathers, scatter-adds and row reductions stay closed: the fold is read through the operations' result buffers
-- only, never through an operation's value on these arrays (the dense product is closed already)
attribute [local irreducible] Host.reduce Host.reduceAdd Host.gather Host.scatterAdd

set_option maxRecDepth 8192 in
set_option maxHeartbeats 4000000 in
/-- Read at the result buffer the fold is `out` of the contents at the ten argument buffers: each operation's value
    is its function of what its operands' buffers hold by then, a call's values pass through its typed references
    unchanged, and the stages' names spell that composition. -/
theorem fold_at_result (V : Valuation τ sig (Elt F)) :
    after refOps V (main_v53 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  after_results_simp
  simp only [ofBuf_toBuf_cancel]
  simp only [out, logSoftmax, shifted, rowMax, bias16, bias64, leaky16, leaky64, dense1, dense2, dense3, sparse16, sparse64]
  rfl

/-! No operation writes an argument's buffer: the fold read there is the contents it started from. -/

set_option maxRecDepth 8192 in
theorem fold_at_arg0 (V : Valuation τ sig (Elt F)) : after refOps V (main_arg0 : DevRef τ sig) = V (main_arg0 : DevRef τ sig) := by
  after_results_simp
set_option maxRecDepth 8192 in
theorem fold_at_arg1 (V : Valuation τ sig (Elt F)) : after refOps V (main_arg1 : DevRef τ sig) = V (main_arg1 : DevRef τ sig) := by
  after_results_simp
set_option maxRecDepth 8192 in
theorem fold_at_arg2 (V : Valuation τ sig (Elt F)) : after refOps V (main_arg2 : DevRef τ sig) = V (main_arg2 : DevRef τ sig) := by
  after_results_simp
set_option maxRecDepth 8192 in
theorem fold_at_arg3 (V : Valuation τ sig (Elt F)) : after refOps V (main_arg3 : DevRef τ sig) = V (main_arg3 : DevRef τ sig) := by
  after_results_simp
set_option maxRecDepth 8192 in
theorem fold_at_arg4 (V : Valuation τ sig (Elt F)) : after refOps V (main_arg4 : DevRef τ sig) = V (main_arg4 : DevRef τ sig) := by
  after_results_simp
set_option maxRecDepth 8192 in
theorem fold_at_arg5 (V : Valuation τ sig (Elt F)) : after refOps V (main_arg5 : DevRef τ sig) = V (main_arg5 : DevRef τ sig) := by
  after_results_simp
set_option maxRecDepth 8192 in
theorem fold_at_arg6 (V : Valuation τ sig (Elt F)) : after refOps V (main_arg6 : DevRef τ sig) = V (main_arg6 : DevRef τ sig) := by
  after_results_simp
set_option maxRecDepth 8192 in
theorem fold_at_arg7 (V : Valuation τ sig (Elt F)) : after refOps V (main_arg7 : DevRef τ sig) = V (main_arg7 : DevRef τ sig) := by
  after_results_simp
set_option maxRecDepth 8192 in
theorem fold_at_arg8 (V : Valuation τ sig (Elt F)) : after refOps V (main_arg8 : DevRef τ sig) = V (main_arg8 : DevRef τ sig) := by
  after_results_simp
set_option maxRecDepth 8192 in
theorem fold_at_arg9 (V : Valuation τ sig (Elt F)) : after refOps V (main_arg9 : DevRef τ sig) = V (main_arg9 : DevRef τ sig) := by
  after_results_simp

end Fold

/-- Every weakly fair execution of the reference's @main ends, nothing faulting, with the result at `out` of the ten
    arguments and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = out
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v53).trans (fold_at_result _),
      (h c main_arg0).trans (fold_at_arg0 _), (h c main_arg1).trans (fold_at_arg1 _),
      (h c main_arg2).trans (fold_at_arg2 _), (h c main_arg3).trans (fold_at_arg3 _),
      (h c main_arg4).trans (fold_at_arg4 _), (h c main_arg5).trans (fold_at_arg5 _),
      (h c main_arg6).trans (fold_at_arg6 _), (h c main_arg7).trans (fold_at_arg7 _),
      (h c main_arg8).trans (fold_at_arg8 _), (h c main_arg9).trans (fold_at_arg9 _)⟩)
    (run_fold m ρ)

end Cert.ReferenceIdeal.Val

end
-- ==== Proof.RefMM.lean ====
/-
  The reference's three dense products, at the extended reals: the host's dot_general over one contracted axis is,
  entry by entry, the sum over that axis of the products (Spec.lean `mm`).
-/
import proofs.«405061_j45071386805056_4_alg».proof.Proof.RefTerms
import proofs.«405061_j45071386805056_4_alg».proof.Proof.Spec
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

open scoped BigOperators

namespace Cert.ReferenceIdeal.Val

open Cert.ReferenceIdeal Cert.ReferenceIdeal.Facts₀
open Idealize.ShloMosaic Idealize.ShloMosaic.ValueIdx

/-- Rows times columns, for any extents. Dimension numbers that contract the left operand's axis 1 with the right
    operand's axis 0, keep the left operand's axis 0 and the right operand's axis 1 and batch nothing are those of the
    plain product of an n×k by a k×p matrix; its entry (a, b) is the sum over the contracted coordinate l of
    X[a, l] · W[l, b] (the library's `StackMember.dotGeneral_plain_apply`), which is `Spec.mm` read at (a, b). -/
theorem dotGeneral_axis1_axis0_eq_mm {n k p : Nat}
    (w : DotDims.WF ⟨2, ![n, k]⟩ ⟨2, ![k, p]⟩ ⟨2, ![n, p]⟩ [1] [0] [0] [1] [] [])
    (X : FVec Ideal ⟨2, ![n, k]⟩ .f32) (W : FVec Ideal ⟨2, ![k, p]⟩ .f32) :
    Host.dotGeneral (⟨[1], [0], [0], [1], [], [], w⟩ : DotDims ⟨2, ![n, k]⟩ ⟨2, ![k, p]⟩ ⟨2, ![n, p]⟩) none X W
      = Cert.Spec.mm X W := by
  funext i
  obtain ⟨a, b, rfl⟩ : ∃ (a : Fin n) (b : Fin p), i = ix2 a b := ⟨i 0, i 1, eq_ix2 i⟩
  exact StackMember.dotGeneral_plain_apply none X W a b

theorem dense1_eq (x : FVec Ideal S100000x512 .f32) (W : FVec Ideal S512x16 .f32) : dense1 x W = Cert.Spec.mm x W :=
  dotGeneral_axis1_axis0_eq_mm _ x W

theorem dense2_eq (h : FVec Ideal S100000x16 .f32) (W : FVec Ideal S16x64 .f32) : dense2 h W = Cert.Spec.mm h W :=
  dotGeneral_axis1_axis0_eq_mm _ h W

theorem dense3_eq (h : FVec Ideal S100000x64 .f32) (W : FVec Ideal S64x16 .f32) : dense3 h W = Cert.Spec.mm h W :=
  dotGeneral_axis1_axis0_eq_mm _ h W

end Cert.ReferenceIdeal.Val

end
-- ==== Proof.RefLeaky.lean ====
/-
  The reference's bias and leaky rectifier, at the extended reals: the outlined compare-multiply-select on the biased
  array is, entry by entry, Spec.lean's `biasLeaky`. Every operation here is pointwise but the two broadcasts: a scalar
  splat reads its one value at every index, and a vector made one row and laid along every row reads, at (r, t), its
  entry t.
-/
import proofs.«405061_j45071386805056_4_alg».proof.Proof.RefTerms
import proofs.«405061_j45071386805056_4_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.ReferenceIdeal.Val

open Cert.ReferenceIdeal Cert.ReferenceIdeal.Facts₀
open Idealize.ShloMosaic Idealize.ShloMosaic.ValueIdx

section Broadcasts
variable {α : Type}

/-- A scalar broadcast into any shape holds the scalar at every index. -/
theorem splat_apply {t : Shape} (h : (⟨0, ![]⟩ : Shape).BroadcastsInDim t ![]) (x : (⟨0, ![]⟩ : Shape).Idx → α) (j : t.Idx) :
    broadcastInDim t ![] h x j = x ix0 :=
  broadcastInDim_apply ![] h x j ix0 (fun a => a.elim0)

/-- A vector of `p` entries made one row and laid along each of `n` rows holds, at (r, t), the vector's entry t. -/
theorem rows_apply {n p : Nat} (h1 : (⟨1, ![p]⟩ : Shape).BroadcastsInDim ⟨2, ![1, p]⟩ ![1])
    (h2 : (⟨2, ![1, p]⟩ : Shape).BroadcastsInDim ⟨2, ![n, p]⟩ ![0, 1]) (b : (⟨1, ![p]⟩ : Shape).Idx → α)
    (r : Fin n) (t : Fin p) :
    broadcastInDim ⟨2, ![n, p]⟩ ![0, 1] h2 (broadcastInDim ⟨2, ![1, p]⟩ ![1] h1 b) (ix2 r t) = b (ix1 t) := by
  rw [broadcastInDim_oneRow_apply]
  refine broadcastInDim_apply ![1] h1 b (ix2 (0 : Fin 1) t) (ix1 t) ?_
  intro a
  fin_cases a
  show t.val = if p = 1 then 0 else t.val
  split_ifs with hp
  · have := t.isLt; omega
  · rfl

end Broadcasts

/-- The biased rectifier for any extents: where the biased entry is at least zero (as the float comparison reads it)
    the entry itself, elsewhere the slope times it. -/
theorem leaky_bias_eq {n p : Nat} (h0 : (⟨0, ![]⟩ : Shape).BroadcastsInDim ⟨2, ![n, p]⟩ ![])
    (h1 : (⟨1, ![p]⟩ : Shape).BroadcastsInDim ⟨2, ![1, p]⟩ ![1])
    (h2 : (⟨2, ![1, p]⟩ : Shape).BroadcastsInDim ⟨2, ![n, p]⟩ ![0, 1])
    (X : FVec Ideal ⟨2, ![n, p]⟩ .f32) (b : FVec Ideal ⟨1, ![p]⟩ .f32) :
    select (cmpf .oge (addf X (broadcastInDim ⟨2, ![n, p]⟩ ![0, 1] h2 (broadcastInDim ⟨2, ![1, p]⟩ ![1] h1 b)))
        (broadcastInDim ⟨2, ![n, p]⟩ ![] h0 (constant ⟨0, ![]⟩ .f32 0x00000000#32)))
      (addf X (broadcastInDim ⟨2, ![n, p]⟩ ![0, 1] h2 (broadcastInDim ⟨2, ![1, p]⟩ ![1] h1 b)))
      (mulf (broadcastInDim ⟨2, ![n, p]⟩ ![] h0 (id (constant ⟨0, ![]⟩ .f32 0x3C23D70A#32)))
        (addf X (broadcastInDim ⟨2, ![n, p]⟩ ![0, 1] h2 (broadcastInDim ⟨2, ![1, p]⟩ ![1] h1 b))))
      = Cert.Spec.biasLeaky X b := by
  funext i
  obtain ⟨r, t, rfl⟩ : ∃ (r : Fin n) (t : Fin p), i = ix2 r t := ⟨i 0, i 1, eq_ix2 i⟩
  simp only [select_apply, cmpf_apply, addf_apply, mulf_apply, id]
  rw [rows_apply h1 h2 b r t, splat_apply h0 _ (ix2 r t), splat_apply h0 _ (ix2 r t)]
  rfl

theorem leaky16_bias16_eq (X : FVec Ideal S100000x16 .f32) (b : FVec Ideal S16 .f32) : leaky16 (bias16 X b) = Cert.Spec.biasLeaky X b :=
  leaky_bias_eq _ _ _ X b

theorem leaky64_bias64_eq (X : FVec Ideal S100000x64 .f32) (b : FVec Ideal S64 .f32) : leaky64 (bias64 X b) = Cert.Spec.biasLeaky X b :=
  leaky_bias_eq _ _ _ X b

end Cert.ReferenceIdeal.Val

end
-- ==== Proof.RefLsm.lean ====
/-
  The reference's bias and row-wise log-softmax, at the extended reals: jax's outlined log_softmax on the biased array
  is, entry by entry, Spec.lean's `biasLogSoftmax`. The host's reduction over axis 1 with a maximum body, from −∞, is at
  row r the fold of max over the row's entries; taking the maximum with −∞ once more changes nothing; the reduction with
  an add body from zero is the row's sum; a vector of row values made a column and laid along the columns reads, at
  (r, t), its entry r.
-/
import proofs.«405061_j45071386805056_4_alg».proof.Proof.RefLeaky
import Idealize.ShloMosaic.PureOps.Reduce

noncomputable section

open scoped BigOperators

namespace Cert.ReferenceIdeal.Val

open Cert.ReferenceIdeal Cert.ReferenceIdeal.Facts₀
open Idealize.ShloMosaic Idealize.ShloMosaic.ValueIdx

section Rows
variable {n p : Nat}

/-- A vector of `n` row values made a column and laid along each of `p` columns holds, at (r, t), the vector's entry r. -/
theorem cols_apply {α : Type} (h1 : (⟨1, ![n]⟩ : Shape).BroadcastsInDim ⟨2, ![n, 1]⟩ ![0])
    (h2 : (⟨2, ![n, 1]⟩ : Shape).BroadcastsInDim ⟨2, ![n, p]⟩ ![0, 1]) (v : (⟨1, ![n]⟩ : Shape).Idx → α)
    (r : Fin n) (t : Fin p) :
    broadcastInDim ⟨2, ![n, p]⟩ ![0, 1] h2 (broadcastInDim ⟨2, ![n, 1]⟩ ![0] h1 v) (ix2 r t) = v (ix1 r) := by
  have e2 := broadcastInDim_apply ![0, 1] h2 (broadcastInDim ⟨2, ![n, 1]⟩ ![0] h1 v) (ix2 r t) (ix2 r (0 : Fin 1)) (by
    intro a
    fin_cases a
    · show r.val = if n = 1 then 0 else r.val
      split_ifs with hn
      · have := r.isLt; omega
      · rfl
    · show (0 : ℕ) = if (1 : ℕ) = 1 then 0 else _
      simp)
  have e1 := broadcastInDim_apply ![0] h1 v (ix2 r (0 : Fin 1)) (ix1 r) (by
    intro a
    fin_cases a
    show r.val = if n = 1 then 0 else r.val
    split_ifs with hn
    · have := r.isLt; omega
    · rfl)
  rw [e2, e1]

/-- Row r's index with column q put back is (r, q). -/
theorem lift_row (h : (⟨2, ![n, p]⟩ : Shape).Reduces [1] (⟨1, ![n]⟩ : Shape)) (r : Fin n)
    (q : Fin ((⟨2, ![n, p]⟩ : Shape).size 1)) : h.lift (ix1 r) q = ix2 r (⟨q.val, q.isLt⟩ : Fin p) := by
  funext c; apply Fin.ext
  fin_cases c <;> rfl

/-- The host's exponential at an index is the exponential of the entry. -/
theorem hostExp_apply {s : Shape} (x : FVec Ideal s .f32) (i : s.Idx) : Host.exp x i = Ideal.exp (x i) := rfl
/-- The host's logarithm at an index is the logarithm of the entry. -/
theorem hostLog_apply {s : Shape} (x : FVec Ideal s .f32) (i : s.Idx) : Host.log x i = Ideal.log (x i) := rfl

/-- The maximum of −∞ and anything is that thing. -/
theorem max_negInf (y : EReal) : max (Ideal.ofBits .f32 0xFF800000#32) y = y := by
  simp [Ideal.ofBits, Ideal.ieee]

/-- From −∞ the host's reduction with a maximum body over axis 1, at row r, is the fold of max over the row. -/
theorem hostReduce_maximumf_row (Y : FVec Ideal ⟨2, ![n, p]⟩ .f32) (h' : (⟨2, ![n, p]⟩ : Shape).ReducesTo [1] (⟨1, ![n]⟩ : Shape))
    (h : (⟨2, ![n, p]⟩ : Shape).Reduces [1] (⟨1, ![n]⟩ : Shape)) (hu : 0 < (⟨0, ![]⟩ : Shape).numel) (r : Fin n) :
    Host.reduce FloatOps.maximumf Y (constant (⟨0, ![]⟩ : Shape) .f32 0xFF800000#32) h' hu (ix1 r) = Cert.Spec.rowMax Y r := by
  rw [Host.reduce_eq_fold_single FloatOps.maximumf Y _ h' h hu]
  have hf : (Y ∘ h.lift (ix1 r)) = fun q : Fin p => Y (ix2 r q) := funext fun q => congrArg Y (lift_row h r q)
  exact congrArg (fun f => Finset.fold max (Ideal.ofBits .f32 0xFF800000#32) f (Finset.univ : Finset (Fin p))) hf

/-- From zero the host's reduction with an add body over axis 1, at row r, is the row's sum. -/
theorem hostReduceAdd_row (E : FVec Ideal ⟨2, ![n, p]⟩ .f32) (h' : (⟨2, ![n, p]⟩ : Shape).ReducesTo [1] (⟨1, ![n]⟩ : Shape))
    (h : (⟨2, ![n, p]⟩ : Shape).Reduces [1] (⟨1, ![n]⟩ : Shape)) (hu : 0 < (⟨0, ![]⟩ : Shape).numel) (r : Fin n) :
    Host.reduceAdd E (constant (⟨0, ![]⟩ : Shape) .f32 0x00000000#32) h' hu (ix1 r) = ∑ q : Fin p, E (ix2 r q) := by
  show Ideal.hostReduceAdd _ _ _ (ix1 r) = _
  rw [Ideal.hostReduceAdd_single h' h]
  show Ideal.ofBits .f32 0x00000000#32 + _ = _
  rw [Ideal.ofBits_zero_f32, zero_add]
  exact Finset.sum_congr rfl fun q _ => congrArg E (lift_row h r q)

end Rows

/-- The outlined log-softmax for any extents: with m the row's maximum, (y − m) − log Σ_q exp(y_q − m), entry by entry. -/
theorem logSoftmax_eq {n p : Nat} (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, p]⟩ ![0, 1])
    (h' : (⟨2, ![n, p]⟩ : Shape).ReducesTo [1] (⟨1, ![n]⟩ : Shape)) (h : (⟨2, ![n, p]⟩ : Shape).Reduces [1] (⟨1, ![n]⟩ : Shape))
    (hu : 0 < (⟨0, ![]⟩ : Shape).numel) (Y : FVec Ideal ⟨2, ![n, p]⟩ .f32) :
    subf
      (subf Y (broadcastInDim ⟨2, ![n, p]⟩ ![0, 1] h2 (broadcastInDim ⟨2, ![n, 1]⟩ ![0] h1
        (maximumf (broadcastInDim ⟨1, ![n]⟩ ![] h0 (constant ⟨0, ![]⟩ .f32 0xFF800000#32))
          (Host.reduce FloatOps.maximumf Y (constant ⟨0, ![]⟩ .f32 0xFF800000#32) h' hu)))))
      (broadcastInDim ⟨2, ![n, p]⟩ ![0, 1] h2 (Host.log (broadcastInDim ⟨2, ![n, 1]⟩ ![0] h1
        (Host.reduceAdd (Host.exp
          (subf Y (broadcastInDim ⟨2, ![n, p]⟩ ![0, 1] h2 (broadcastInDim ⟨2, ![n, 1]⟩ ![0] h1
            (maximumf (broadcastInDim ⟨1, ![n]⟩ ![] h0 (constant ⟨0, ![]⟩ .f32 0xFF800000#32))
              (Host.reduce FloatOps.maximumf Y (constant ⟨0, ![]⟩ .f32 0xFF800000#32) h' hu))))))
          (constant ⟨0, ![]⟩ .f32 0x00000000#32) h' hu))))
      = Cert.Spec.logSoftmax Y := by
  -- the row maximum as the outlined text spells it, at row r
  have hmax : ∀ r : Fin n, (maximumf (broadcastInDim ⟨1, ![n]⟩ ![] h0 (constant ⟨0, ![]⟩ .f32 0xFF800000#32))
      (Host.reduce FloatOps.maximumf Y (constant ⟨0, ![]⟩ .f32 0xFF800000#32) h' hu) : FVec Ideal ⟨1, ![n]⟩ .f32) (ix1 r)
      = Cert.Spec.rowMax Y r := by
    intro r
    rw [maximumf_apply, splat_apply h0 _ (ix1 r), hostReduce_maximumf_row Y h' h hu r]
    exact max_negInf _
  -- the shifted entries
  have hsh : ∀ (r : Fin n) (q : Fin p), (subf Y (broadcastInDim ⟨2, ![n, p]⟩ ![0, 1] h2 (broadcastInDim ⟨2, ![n, 1]⟩ ![0] h1
      (maximumf (broadcastInDim ⟨1, ![n]⟩ ![] h0 (constant ⟨0, ![]⟩ .f32 0xFF800000#32))
        (Host.reduce FloatOps.maximumf Y (constant ⟨0, ![]⟩ .f32 0xFF800000#32) h' hu)))) : FVec Ideal ⟨2, ![n, p]⟩ .f32) (ix2 r q)
      = Y (ix2 r q) - Cert.Spec.rowMax Y r := by
    intro r q
    rw [subf_apply, cols_apply h1 h2 _ r q, hmax r]
  funext i
  obtain ⟨r, t, rfl⟩ : ∃ (r : Fin n) (t : Fin p), i = ix2 r t := ⟨i 0, i 1, eq_ix2 i⟩
  rw [subf_apply, hsh r t]
  -- the logarithm of the row's sum of exponentials, laid along the row
  have hlog : (broadcastInDim ⟨2, ![n, p]⟩ ![0, 1] h2 (Host.log (broadcastInDim ⟨2, ![n, 1]⟩ ![0] h1
      (Host.reduceAdd (Host.exp
        (subf Y (broadcastInDim ⟨2, ![n, p]⟩ ![0, 1] h2 (broadcastInDim ⟨2, ![n, 1]⟩ ![0] h1
          (maximumf (broadcastInDim ⟨1, ![n]⟩ ![] h0 (constant ⟨0, ![]⟩ .f32 0xFF800000#32))
            (Host.reduce FloatOps.maximumf Y (constant ⟨0, ![]⟩ .f32 0xFF800000#32) h' hu))))))
        (constant ⟨0, ![]⟩ .f32 0x00000000#32) h' hu))) : FVec Ideal ⟨2, ![n, p]⟩ .f32) (ix2 r t)
      = Ideal.log (∑ q : Fin p, Ideal.exp (Y (ix2 r q) - Cert.Spec.rowMax Y r)) := by
    have e2 := broadcastInDim_apply ![0, 1] h2 (Host.log (broadcastInDim ⟨2, ![n, 1]⟩ ![0] h1
      (Host.reduceAdd (Host.exp
        (subf Y (broadcastInDim ⟨2, ![n, p]⟩ ![0, 1] h2 (broadcastInDim ⟨2, ![n, 1]⟩ ![0] h1
          (maximumf (broadcastInDim ⟨1, ![n]⟩ ![] h0 (constant ⟨0, ![]⟩ .f32 0xFF800000#32))
            (Host.reduce FloatOps.maximumf Y (constant ⟨0, ![]⟩ .f32 0xFF800000#32) h' hu))))))
        (constant ⟨0, ![]⟩ .f32 0x00000000#32) h' hu))) (ix2 r t) (ix2 r (0 : Fin 1)) (by
      intro a
      fin_cases a
      · show r.val = if n = 1 then 0 else r.val
        split_ifs with hn
        · have := r.isLt; omega
        · rfl
      · show (0 : ℕ) = if (1 : ℕ) = 1 then 0 else _
        simp)
    rw [e2, hostLog_apply]
    have e1 := broadcastInDim_apply ![0] h1 (Host.reduceAdd (Host.exp
        (subf Y (broadcastInDim ⟨2, ![n, p]⟩ ![0, 1] h2 (broadcastInDim ⟨2, ![n, 1]⟩ ![0] h1
          (maximumf (broadcastInDim ⟨1, ![n]⟩ ![] h0 (constant ⟨0, ![]⟩ .f32 0xFF800000#32))
            (Host.reduce FloatOps.maximumf Y (constant ⟨0, ![]⟩ .f32 0xFF800000#32) h' hu))))))
        (constant ⟨0, ![]⟩ .f32 0x00000000#32) h' hu) (ix2 r (0 : Fin 1)) (ix1 r) (by
      intro a
      fin_cases a
      show r.val = if n = 1 then 0 else r.val
      split_ifs with hn
      · have := r.isLt; omega
      · rfl)
    rw [e1, hostReduceAdd_row _ h' h hu r]
    refine congrArg Ideal.log (Finset.sum_congr rfl fun q _ => ?_)
    rw [hostExp_apply, hsh r q]
  rw [hlog]
  rfl

/-- The biased array, entry by entry. -/
theorem bias16_apply (X : FVec Ideal S100000x16 .f32) (b : FVec Ideal S16 .f32) :
    bias16 X b = fun i => X i + b (ix1 (i 1 : Fin 16)) := by
  funext i
  obtain ⟨r, t, rfl⟩ : ∃ (r : Fin 100000) (t : Fin 16), i = ix2 r t := ⟨i 0, i 1, eq_ix2 i⟩
  unfold bias16
  rw [addf_apply, rows_apply bcast_S16_S1x16_1 bcast_S1x16_S100000x16_0_1 b r t]

theorem logSoftmax_bias16_eq (X : FVec Ideal S100000x16 .f32) (b : FVec Ideal S16 .f32) : logSoftmax (bias16 X b) = Cert.Spec.biasLogSoftmax X b := by
  have e : logSoftmax (bias16 X b) = Cert.Spec.logSoftmax (bias16 X b) :=
    logSoftmax_eq bcast_S_S100000 bcast_S100000_S100000x1_0 bcast_S100000x1_S100000x16_0_1 reducesTo_S100000x16_S100000_d1
      (by decide) h_S_ (bias16 X b)
  rw [e, bias16_apply]
  rfl

end Cert.ReferenceIdeal.Val

end
-- ==== Proof.lean ====
/-
  Two programs for a three-layer graph convolution on 100000 nodes and 3200000 edges are shown equal on the extended
  reals. A layer is: support = h · W; one message per edge, the edge's value times the support row of its source; the
  messages summed into the row of the edge's destination; the bias added along every row; then the leaky rectifier
  (layers 1, 2) or the row-wise log-softmax (layer 3).
  The kernel program computes each product 2000 rows at a time and each bias-and-activation 10000 rows at a time in
  six pallas_calls, with the sparse step as host operations between them; the reference computes everything on the
  host. The sparse step is the same operations on both sides. The three dense stages are equal entry by entry:
  a block product into a zero accumulator is the rows of the whole product (a sum over the contracted axis on both
  sides, 0 + s = s); the compare-multiply-select of the rectifier is pointwise on both sides; the row maximum and the
  row sum are the same folds over the sixteen entries of a row, the reference's second maximum against −∞ changing
  nothing. No step divides, cancels or distributes, so the inputs' finiteness is not used.
  The frames: the kernel program's two are its generated frame certificate; the reference's is its run (a straight
  line of host operations) with the result dropped. The idealization rewrote nothing.
-/
import proofs.«405061_j45071386805056_4_alg».proof.Defs
import proofs.«405061_j45071386805056_4_alg».proof.Proof.Gen.Kernel
import proofs.«405061_j45071386805056_4_alg».proof.Proof.Gen.Kernel.Skeleton
import proofs.«405061_j45071386805056_4_alg».proof.Proof.Gen.Kernel.Launch
import proofs.«405061_j45071386805056_4_alg».proof.Proof.Gen.Kernel.Points
import proofs.«405061_j45071386805056_4_alg».proof.Proof.Gen.Kernel.Frame
import proofs.«405061_j45071386805056_4_alg».proof.Proof.Gen.KernelIdeal
import proofs.«405061_j45071386805056_4_alg».proof.Proof.Gen.KernelIdeal.Skeleton
import proofs.«405061_j45071386805056_4_alg».proof.Proof.Gen.KernelIdeal.Launch
import proofs.«405061_j45071386805056_4_alg».proof.Proof.Gen.KernelIdeal.Points
import proofs.«405061_j45071386805056_4_alg».proof.Proof.Gen.KernelIdeal.Frame
import proofs.«405061_j45071386805056_4_alg».proof.Proof.Gen.ReferenceIdeal
import proofs.«405061_j45071386805056_4_alg».proof.Proof.Gen.Pre_finite_inputs
import proofs.«405061_j45071386805056_4_alg».proof.Proof.KernelRun
import proofs.«405061_j45071386805056_4_alg».proof.Proof.KernelChain
import proofs.«405061_j45071386805056_4_alg».proof.Proof.RefRun
import proofs.«405061_j45071386805056_4_alg».proof.Proof.RefMM
import proofs.«405061_j45071386805056_4_alg».proof.Proof.RefLeaky
import proofs.«405061_j45071386805056_4_alg».proof.Proof.RefLsm
import Idealize.ShloMosaic.Adequacy
import Idealize.ShloMosaic.Init

noncomputable section

namespace Cert.Proof

open Idealize.ShloMosaic Idealize.SL.Sem

/-- The sparse step of width 16 is one function in the two programs: the same host operations over the same
    dimension numbers. -/
theorem sparse16_eq (a : FVec Ideal Cert.KernelIdeal.S100000x16 .f32) (src dst : IVec Cert.KernelIdeal.S3200000 32)
    (ev : FVec Ideal Cert.KernelIdeal.S3200000 .f32) :
    Cert.ReferenceIdeal.Val.sparse16 a src dst ev = Cert.KernelIdeal.Val.sparse16 a src dst ev := rfl

/-- The sparse step of width 64 likewise. -/
theorem sparse64_eq (a : FVec Ideal Cert.KernelIdeal.S100000x64 .f32) (src dst : IVec Cert.KernelIdeal.S3200000 32)
    (ev : FVec Ideal Cert.KernelIdeal.S3200000 .f32) :
    Cert.ReferenceIdeal.Val.sparse64 a src dst ev = Cert.KernelIdeal.Val.sparse64 a src dst ev := rfl

/-- The two programs' results are one function of the ten arguments: stage by stage the reference's dense products,
    biased rectifiers and biased log-softmax are the specification's, and the sparse steps are the same operations. -/
theorem out_eq (x : FVec Ideal Cert.KernelIdeal.S100000x512 .f32) (src dst : IVec Cert.KernelIdeal.S3200000 32)
    (ev : FVec Ideal Cert.KernelIdeal.S3200000 .f32)
    (W1 : FVec Ideal Cert.KernelIdeal.S512x16 .f32) (b1 : FVec Ideal Cert.KernelIdeal.S16 .f32)
    (W2 : FVec Ideal Cert.KernelIdeal.S16x64 .f32) (b2 : FVec Ideal Cert.KernelIdeal.S64 .f32)
    (W3 : FVec Ideal Cert.KernelIdeal.S64x16 .f32) (b3 : FVec Ideal Cert.KernelIdeal.S16 .f32) :
    Cert.ReferenceIdeal.Val.out x src dst ev W1 b1 W2 b2 W3 b3 = Cert.KernelIdeal.Val.out x src dst ev W1 b1 W2 b2 W3 b3 := by
  unfold Cert.ReferenceIdeal.Val.out Cert.KernelIdeal.Val.out
  rw [Cert.ReferenceIdeal.Val.logSoftmax_bias16_eq, Cert.ReferenceIdeal.Val.dense3_eq,
    Cert.ReferenceIdeal.Val.leaky64_bias64_eq, Cert.ReferenceIdeal.Val.dense2_eq,
    Cert.ReferenceIdeal.Val.leaky16_bias16_eq, Cert.ReferenceIdeal.Val.dense1_eq,
    sparse16_eq, sparse64_eq, sparse16_eq]

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Val.run (F := Ideal) m ρ)

/-- The idealization rewrote no operation: nothing to preserve. -/
theorem preserves : Cert.preserves_Kernel_KernelIdeal := trivial

/-- From memories agreeing on the ten arguments both programs end with the result at the kernel program's function of
    the arguments: the kernel program's run read back through its boundaries, the reference's run and `out_eq`. -/
theorem algebraic : Cert.algebraic_KernelIdeal_ReferenceIdeal := by
  intro m ρ m' ρ' _ hagree
  refine ⟨fun c => Cert.KernelIdeal.Val.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Val.W9_out m ρ c), (h c).2⟩)
      (Cert.KernelIdeal.Val.run_value (F := Ideal) m ρ)
  · refine (θ_run Cert.ReferenceIdeal.defs _ _).mono (fun _ h c => ⟨(h c).1.trans ?_, (h c).2⟩)
      (Cert.ReferenceIdeal.Val.run (F := Ideal) m' ρ')
    obtain ⟨e0, e1, e2, e3, e4, e5, e6, e7, e8, e9⟩ := hagree c
    rw [e0, e1, e2, e3, e4, e5, e6, e7, e8, e9]
    exact out_eq _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
